-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S64x1024x1024 : Shape := ⟨3, ![64, 1024, 1024]⟩
abbrev S64 : Shape := ⟨1, ![64]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : IVec S64 32) (main_v13 : IVec S_ 1) (main_v16 : IVec S64x1024x1024 1) : IVec S_ 1 :=
  let main_c_5 : IVec S_ 1 := constantI S_ 1 1#1
  let main_v17 : IVec S_ 1 := (fun x v => Host.reduce IntOp.andi x v reducesTo_S64x1024x1024_S_d0_1_2 h_S_) main_v16 main_c_5
  let main_v18 : IVec S_ 1 := andi main_v13 main_v17
  let main_c_6 : IVec S_ 32 := constantI S_ 32 0#32
  let main_v19 : IVec S64 32 := broadcastInDim S64 ![] bcast_S_S64 main_c_6
  let main_v20 : IVec S64 1 := cmpi .sge main_arg4 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v18 main_v21
  main_v22

def fn {F : FTy → Type} [FloatOps F] (main_arg0 : FVec F S2048x1024 .f32) (main_arg1 : FVec F S64x1024x1024 .f32) (main_arg2 : FVec F S64x1024x1024 .f32) (main_arg3 : FVec F S64x1024x1024 .f32) (main_arg4 : IVec S64 32) (main_arg5 : IVec S64 32) (main_arg6 : IVec S64 32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S64x1024x1024 .f32 := Host.absf main_arg2
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x1024x1024 .f32 := Host.absf main_arg3
  let main_cst_4 : FVec F S_ .f32 := constant S_ .f32 0x7F800000#32
  let main_v15 : FVec F S64x1024x1024 .f32 := broadcastInDim S64x1024x1024 ![] bcast_S_S64x1024x1024 main_cst_4
  let main_v16 : IVec S64x1024x1024 1 := cmpf .olt main_v14 main_v15
  fn_part1 (F := F) main_arg4 main_v13 main_v16
-- ==== Kernel.lean ====
abbrev S2048x1024 : Shape := ⟨2, ![2048, 1024]⟩
abbrev S64x1024x1024 : Shape := ⟨3, ![64, 1024, 1024]⟩
abbrev S64 : Shape := ⟨1, ![64]⟩
abbrev S_ : Shape := ⟨0, ![]⟩
abbrev S32x1024 : Shape := ⟨2, ![32, 1024]⟩
abbrev S1x1024x1024 : Shape := ⟨3, ![1, 1024, 1024]⟩
abbrev S1 : Shape := ⟨1, ![1]⟩
abbrev S1x512x1024 : Shape := ⟨3, ![1, 512, 1024]⟩
abbrev S512x1024 : Shape := ⟨2, ![512, 1024]⟩
abbrev S32x512 : Shape := ⟨2, ![32, 512]⟩
abbrev S1x1024x512 : Shape := ⟨3, ![1, 1024, 512]⟩
abbrev S1024x512 : Shape := ⟨2, ![1024, 512]⟩

abbrev nBuf : Space → Nat
  | .hbm => 15
  | .vmem => 10
  | .smem => 1
  | _ => 0

abbrev bufTy : (tb : Table) → Fin (tcTables nBuf tb) → BufTy
  | .hbm, ⟨0, _⟩ => ⟨S2048x1024, .f32⟩
  | .hbm, ⟨1, _⟩ => ⟨S64x1024x1024, .f32⟩
  | .hbm, ⟨2, _⟩ => ⟨S64x1024x1024, .f32⟩
  | .hbm, ⟨3, _⟩ => ⟨S64x1024x1024, .f32⟩
  | .hbm, ⟨4, _⟩ => ⟨S64, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S2048x1024, .f32⟩
  | .local _ .vmem, ⟨0, _⟩ => ⟨S32x1024, .f32⟩
  | .local _ .vmem, ⟨1, _⟩ => ⟨S32x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S32x1024, .f32⟩
  | .local _ .vmem, ⟨9, _⟩ => ⟨S32x1024, .f32⟩
  | .local _ .smem, ⟨0, _⟩ => ⟨S64, .i32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v1 : Ref sig .tc := ⟨.hbm, 14, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64 : S_.BroadcastsInDim S64 (![] : Fin 0 → Fin S64.rank)
  numel1_S1 : S1.numel = 1
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S1x1024x1024_S1x512x1024_0_0_0 : ∀ a, (![0, 0, 0] : Fin 3 → Nat) a + S1x512x1024.size a ≤ S1x1024x1024.size a
  h_S1x512x1024 : 0 < S1x512x1024.numel
  shapeCasts_S1x512x1024_S512x1024 : S1x512x1024.ShapeCasts S512x1024
  inb_S1x1024x1024_S1x1024x512_0_0_0 : ∀ a, (![0, 0, 0] : Fin 3 → Nat) a + S1x1024x512.size a ≤ S1x1024x1024.size a
  h_S1x1024x512 : 0 < S1x1024x512.numel
  shapeCasts_S1x1024x512_S1024x512 : S1x1024x512.ShapeCasts S1024x512
  inb_S1x1024x1024_S1x512x1024_0_512_0 : ∀ a, (![0, 512, 0] : Fin 3 → Nat) a + S1x512x1024.size a ≤ S1x1024x1024.size a
  inb_S1x1024x1024_S1x1024x512_0_0_512 : ∀ a, (![0, 0, 512] : Fin 3 → Nat) a + S1x1024x512.size a ≤ S1x1024x1024.size a
  dot_S32x1024_S512x1024_S32x512_1_1_0_0_n_n_wf : DotDims.WF S32x1024 S512x1024 S32x512 [1] [1] [0] [0] [] []
  dot_S32x512_S1024x512_S32x1024_1_1_0_0_n_n_wf : DotDims.WF S32x512 S1024x512 S32x1024 [1] [1] [0] [0] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S2048x1024.size a
  hwx0_0 : ∀ i : grid0.Coords, EltTy.bits .f32 = 32 ∨ (Rect.block (s := S2048x1024) S32x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1024.size a ≤ S2048x1024.size a
  hwx0_4 : ∀ i : grid0.Coords, EltTy.bits .f32 = 32 ∨ (Rect.block (s := S2048x1024) S32x1024.size (cc0_transform_4 i) (hinb0_4 i)).WholeWords (EltTy.packing .f32)

variable [Facts₀]

def dot_S32x1024_S512x1024_S32x512_1_1_0_0_n_n : DotDims S32x1024 S512x1024 S32x512 where
  lhsContracting := [1]
  rhsContracting := [1]
  lhsNonContracting := [0]
  rhsNonContracting := [0]
  lhsBatch := []
  rhsBatch := []
  wf := dot_S32x1024_S512x1024_S32x512_1_1_0_0_n_n_wf
def dot_S32x512_S1024x512_S32x1024_1_1_0_0_n_n : DotDims S32x512 S1024x512 S32x1024 where
  lhsContracting := [1]
  rhsContracting := [1]
  lhsNonContracting := [0]
  rhsNonContracting := [0]
  lhsBatch := []
  rhsBatch := []
  wf := dot_S32x512_S1024x512_S32x1024_1_1_0_0_n_n_wf

abbrev spec0_0 : Pipeline.WinSpec sig grid0.rank :=
  Pipeline.WinSpec.ofSpec (Memref.whole main_arg0) S32x1024.size reads0_0 false false 2 stage0_0 sem0_0 nbuf0_0 hstage0_0

abbrev spec0_1 : Pipeline.WinSpec sig grid0.rank :=
  Pipeline.WinSpec.ofSpec (Memref.whole main_arg1) S1x1024x1024.size reads0_1 false false 2 stage0_1 sem0_1 nbuf0_1 hstage0_1

abbrev spec0_2 : Pipeline.WinSpec sig grid0.rank :=
  Pipeline.WinSpec.ofSpec (Memref.whole main_arg2) S1x1024x1024.size reads0_2 false false 2 stage0_2 sem0_2 nbuf0_2 hstage0_2

abbrev spec0_3 : Pipeline.WinSpec sig grid0.rank :=
  Pipeline.WinSpec.ofSpec (Memref.whole main_arg3) S1x1024x1024.size reads0_3 false false 2 stage0_3 sem0_3 nbuf0_3 hstage0_3

abbrev spec0_4 : Pipeline.WinSpec sig grid0.rank :=
  Pipeline.WinSpec.ofSpec (Memref.whole main_v1) S32x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 k0_off1_inb numel1_S1 pf | 2 => cc0_transform_2 k0_off1_inb numel1_S1 pf | 3 => cc0_transform_3 k0_off1_inb numel1_S1 pf | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 pf | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S64x1024x1024.size a), EltTy.bits .f32 = 32 ∨ (Rect.block (s := S64x1024x1024) S1x1024x1024.size (cc0_transform_1 k0_off1_inb numel1_S1 pf i) h).WholeWords (EltTy.packing .f32)) ∧
  (∀ i : grid0.Coords, ∃ h : (∀ a, (cc0_transform_2 k0_off1_inb numel1_S1 pf i a + 1) * S1x1024x1024.size a ≤ S64x1024x1024.size a), EltTy.bits .f32 = 32 ∨ (Rect.block (s := S64x1024x1024) S1x1024x1024.size (cc0_transform_2 k0_off1_inb numel1_S1 pf i) h).WholeWords (EltTy.packing .f32)) ∧
  (∀ i : grid0.Coords, ∃ h : (∀ a, (cc0_transform_3 k0_off1_inb numel1_S1 pf i a + 1) * S1x1024x1024.size a ≤ S64x1024x1024.size a), EltTy.bits .f32 = 32 ∨ (Rect.block (s := S64x1024x1024) S1x1024x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2.1 i).elim fun h _ => h a | 3 => fun i a => (hok.2.2 i).elim fun h _ => h a | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2.1 i).elim fun _ h => h | 3 => fun i => (hok.2.2 i).elim fun _ h => h | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S2048x1024 : Shape := ⟨2, ![2048, 1024]⟩
abbrev S64x1024x1024 : Shape := ⟨3, ![64, 1024, 1024]⟩
abbrev S64 : Shape := ⟨1, ![64]⟩
abbrev S64x32x1024 : Shape := ⟨3, ![64, 32, 1024]⟩
abbrev S_ : Shape := ⟨0, ![]⟩
abbrev S64x1 : Shape := ⟨2, ![64, 1]⟩

abbrev nBuf : Space → Nat
  | .hbm => 49
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x1024x1024, .f32⟩
  | .hbm, ⟨2, _⟩ => ⟨S64x1024x1024, .f32⟩
  | .hbm, ⟨3, _⟩ => ⟨S64x1024x1024, .f32⟩
  | .hbm, ⟨4, _⟩ => ⟨S64, .i32⟩
  | .hbm, ⟨5, _⟩ => ⟨S64, .i32⟩
  | .hbm, ⟨6, _⟩ => ⟨S64, .i32⟩
  | .hbm, ⟨7, _⟩ => ⟨S64x32x1024, .f32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x1024x1024, .f32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x1024x1024, .f32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x1024x1024, .f32⟩
  | .hbm, ⟨35, _⟩ => ⟨S64x32x1024, .f32⟩
  | .hbm, ⟨36, _⟩ => ⟨S64x32x1024, .f32⟩
  | .hbm, ⟨37, _⟩ => ⟨S64x32x1024, .f32⟩
  | .hbm, ⟨38, _⟩ => ⟨S64x32x1024, .f32⟩
  | .hbm, ⟨39, _⟩ => ⟨S_, .f32⟩
  | .hbm, ⟨40, _⟩ => ⟨S64x32x1024, .f32⟩
  | .hbm, ⟨41, _⟩ => ⟨S64x32x1024, .f32⟩
  | .hbm, ⟨42, _⟩ => ⟨S_, .f32⟩
  | .hbm, ⟨43, _⟩ => ⟨S64x32x1024, .f32⟩
  | .hbm, ⟨44, _⟩ => ⟨S64x32x1024, .f32⟩
  | .hbm, ⟨45, _⟩ => ⟨S64x32x1024, .f32⟩
  | .hbm, ⟨46, _⟩ => ⟨S64x32x1024, .f32⟩
  | .hbm, ⟨47, _⟩ => ⟨S64x32x1024, .f32⟩
  | .hbm, ⟨48, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  shapeCasts_S2048x1024_S64x32x1024 : S2048x1024.ShapeCasts S64x32x1024
  bcast_S_S64 : S_.BroadcastsInDim S64 (![] : Fin 0 → Fin S64.rank)
  bcast_S64_S64x1_0 : S64.BroadcastsInDim S64x1 (![0] : Fin 1 → Fin S64x1.rank)
  bcast_S_S64x32x1024 : S_.BroadcastsInDim S64x32x1024 (![] : Fin 0 → Fin S64x32x1024.rank)
  shapeCasts_S64x32x1024_S2048x1024 : S64x32x1024.ShapeCasts S2048x1024
  gather_S64x1024x1024_S64x1_S64x1024x1024_12_0_n_n_0_1_110241024_wf : GatherDims.WF S64x1024x1024 S64x1 S64x1024x1024 [1, 2] [0] [] [0] [] 1 ![1, 1024, 1024]
  dot_S64x32x1024_S64x1024x1024_S64x32x1024_2_2_1_1_0_0_wf : DotDims.WF S64x32x1024 S64x1024x1024 S64x32x1024 [2] [2] [1] [1] [0] [0]

variable [Facts₀]

def gather_S64x1024x1024_S64x1_S64x1024x1024_12_0_n_n_0_1_110241024 : GatherDims S64x1024x1024 S64x1 S64x1024x1024 where
  offsetDims := [1, 2]
  collapsedSliceDims := [0]
  operandBatchingDims := []
  startIndicesBatchingDims := []
  startIndexMap := [0]
  indexVectorDim := 1
  sliceSizes := ![1, 1024, 1024]
  wf := gather_S64x1024x1024_S64x1_S64x1024x1024_12_0_n_n_0_1_110241024_wf
def dot_S64x32x1024_S64x1024x1024_S64x32x1024_2_2_1_1_0_0 : DotDims S64x32x1024 S64x1024x1024 S64x32x1024 where
  lhsContracting := [2]
  rhsContracting := [2]
  lhsNonContracting := [1]
  rhsNonContracting := [1]
  lhsBatch := [0]
  rhsBatch := [0]
  wf := dot_S64x32x1024_S64x1024x1024_S64x32x1024_2_2_1_1_0_0_wf

class Facts : Prop extends Facts₀ where

variable [Facts]
-- ==== Proof.Spec.lean ====
/-
  The mathematics of the grouped expert MLP, on the extended reals, with no program in sight.

  A token row `xr` (1024 activations) goes through ONE expert's gated MLP: the gate and up projections
  `g f = ∑ₖ xr k · W1 f k`, `u f = ∑ₖ xr k · W3 f k`, the SwiGLU hidden value `(g f · logistic (g f)) · u f`, and the
  down projection `∑_f hidden f · W2 d f` (`mlpRow`). The kernel computes the down projection in two halves of the
  hidden axis, the low 512 features first, added into a zero accumulator, then the high 512; a finite sum in a
  commutative monoid splits that way whatever its terms are (`sum_halves`), so no finiteness of the inputs is used.

  Which expert serves a row is decided by the row's segment (32 consecutive rows, `seg`) through a selection
  `sel : Fin 64 → Fin 64` (`moe`); `pick` is the selection both programs make from a word: the word read signed and
  clamped into 0 … 63.
-/
import Idealize.ShloMosaic.PureOps.Ideal
import Idealize.ShloMosaic.Lib.ValueIdx
import Mathlib.Algebra.BigOperators.Fin

noncomputable section

open scoped BigOperators

namespace Cert.Moe

open Idealize.ShloMosaic Idealize.ShloMosaic.ValueIdx

/-- One token row through one expert: `∑_f ((g f · logistic (g f)) · u f) · W2 d f` with `g = xr·W1ᵀ`, `u = xr·W3ᵀ`. -/
def mlpRow (xr : Fin 1024 → EReal) (W1 W3 W2 : Fin 1024 → Fin 1024 → EReal) (d : Fin 1024) : EReal :=
  ∑ f : Fin 1024, (((∑ k : Fin 1024, xr k * W1 f k) * Ideal.logistic (∑ k : Fin 1024, xr k * W1 f k))
    * (∑ k : Fin 1024, xr k * W3 f k)) * W2 d f

/-- Hidden feature `f` of the low half, and of the high half, among the 1024. -/
def lo (f : Fin 512) : Fin 1024 := ⟨f.val, by omega⟩
def hi (f : Fin 512) : Fin 1024 := ⟨512 + f.val, by omega⟩

theorem lo_val (f : Fin 512) : (lo f).val = f.val := rfl
theorem hi_val (f : Fin 512) : (hi f).val = 512 + f.val := rfl

/-- A sum over the 1024 hidden features is the sum over the low half, started from zero, plus the sum over the high half. -/
theorem sum_halves (a : Fin 1024 → EReal) :
    ∑ f : Fin 1024, a f = (0 + ∑ f : Fin 512, a (lo f)) + ∑ f : Fin 512, a (hi f) := by
  rw [zero_add]
  exact @Fin.sum_univ_add EReal _ 512 512 a

/-- So the row's result is the two half down-projections added in the kernel's order. -/
theorem mlpRow_halves (xr : Fin 1024 → EReal) (W1 W3 W2 : Fin 1024 → Fin 1024 → EReal) (d : Fin 1024) :
    mlpRow xr W1 W3 W2 d
      = (0 + ∑ f : Fin 512, (((∑ k : Fin 1024, xr k * W1 (lo f) k) * Ideal.logistic (∑ k : Fin 1024, xr k * W1 (lo f) k))
            * (∑ k : Fin 1024, xr k * W3 (lo f) k)) * W2 d (lo f))
        + ∑ f : Fin 512, (((∑ k : Fin 1024, xr k * W1 (hi f) k) * Ideal.logistic (∑ k : Fin 1024, xr k * W1 (hi f) k))
            * (∑ k : Fin 1024, xr k * W3 (hi f) k)) * W2 d (hi f) :=
  sum_halves _

/-- The segment of a token row: 32 consecutive rows each. -/
def seg (r : Fin 2048) : Fin 64 := ⟨r.val / 32, by have := r.isLt; omega⟩

/-- Row `t` of segment `s`. -/
def rowOf (s : Fin 64) (t : Fin 32) : Fin 2048 := ⟨s.val * 32 + t.val, by have := s.isLt; have := t.isLt; omega⟩

theorem seg_rowOf (s : Fin 64) (t : Fin 32) : seg (rowOf s t) = s := by
  apply Fin.ext; show (s.val * 32 + t.val) / 32 = s.val; have := t.isLt; omega

/-- The expert a word selects: the word read as a signed integer and clamped into 0 … 63. -/
def pick (w : BitVec 32) : Fin 64 := ⟨min w.toInt.toNat 63, by omega⟩

/-- THE RESULT ARRAY: row `r`, column `d` is row `r` of `x` through the expert its segment selects. -/
def moe (x : (⟨2, ![2048, 1024]⟩ : Shape).Idx → EReal) (w1 w3 w2 : (⟨3, ![64, 1024, 1024]⟩ : Shape).Idx → EReal)
    (sel : Fin 64 → Fin 64) : (⟨2, ![2048, 1024]⟩ : Shape).Idx → EReal := fun j =>
  mlpRow (fun k => x (ix2 (j 0) k)) (fun f k => w1 (ix3 (sel (seg (j 0))) f k)) (fun f k => w3 (ix3 (sel (seg (j 0))) f k))
    (fun d f => w2 (ix3 (sel (seg (j 0))) d f)) (j 1)

theorem moe_apply (x : (⟨2, ![2048, 1024]⟩ : Shape).Idx → EReal) (w1 w3 w2 : (⟨3, ![64, 1024, 1024]⟩ : Shape).Idx → EReal)
    (sel : Fin 64 → Fin 64) (r : Fin 2048) (d : Fin 1024) :
    moe x w1 w3 w2 sel (ix2 r d)
      = mlpRow (fun k => x (ix2 r k)) (fun f k => w1 (ix3 (sel (seg r)) f k)) (fun f k => w3 (ix3 (sel (seg r)) f k))
          (fun d f => w2 (ix3 (sel (seg r)) d f)) d := rfl

end Cert.Moe

end
-- ==== Proof.TableBits.lean ====
/-
  The table of expert rows the weight windows' index maps read, and the pipeline's side condition of it.

  Before the region the program clamps every expert id into 0 … 63 as a signed word (`min 63 (max 0 id)`) and hands
  the 64 clamped words to the region as its prefetched table (`tbl_eq`). A clamped word, read unsigned, is the id read
  as a signed integer and clamped into 0 … 63 (`clamp_toNat`): `Moe.pick` of the id. So every word is below 64, and the
  block of a weight array the index map names at any grid point — expert row `word`, all of the two inner axes — lies
  inside the `64 × 1024 × 1024` array (`ok`): the side condition holds for every launch memory, whatever the ids are.
-/
import proofs.«412031_j69234872811781_3_alg».proof.Proof.Gen.Kernel.Frame
import proofs.«412031_j69234872811781_3_alg».proof.Proof.Spec
import Idealize.ShloMosaic.Lib.StableHlo.Run
import Idealize.ShloMosaic.Lib.ValueIdx

set_option maxRecDepth 16384

noncomputable section

namespace Cert.Kernel.Table

open Cert.Kernel Cert.Kernel.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- The table the region is entered with: the launched expert ids, each clamped into 0 … 63. -/
theorem tbl_eq : tbl m 0 = minsi (broadcastInDim S64 ![] bcast_S_S64 (constantI S_ 32 63#32))
    (maxsi (broadcastInDim S64 ![] bcast_S_S64 (constantI S_ 32 0#32)) (m (((0 : Dev nD) : Thread nD τ).loc main_arg4))) := by
  unfold tbl
  show V m 0 main_v0 = _
  dsimp only [V]
  simp only [hostOps0, hostOps0_1, List.flatten_cons, List.flatten_nil, List.append_nil, List.cons_append, List.nil_append]
  after_results
  rfl

/-- A signed clamp into 0 … 63, read unsigned, is the word's signed value clamped into 0 … 63. -/
theorem clamp_toNat (w : BitVec 32) : (IntOp.minsi 63#32 (IntOp.maxsi 0#32 w)).toNat = min w.toInt.toNat 63 := by
  have h0 : (0#32 : BitVec 32).toInt = 0 := by decide
  have h63 : (63#32 : BitVec 32).toInt = 63 := by decide
  by_cases h1 : w.toInt < 0
  · have e : IntOp.maxsi 0#32 w = 0#32 := by
      unfold IntOp.maxsi; rw [if_pos (by simp only [BitVec.slt, h0, decide_eq_true_eq]; exact h1)]
    rw [e, show IntOp.minsi 63#32 0#32 = 0#32 from by decide]
    show 0 = _
    omega
  · have e : IntOp.maxsi 0#32 w = w := by
      unfold IntOp.maxsi; rw [if_neg (by simp only [BitVec.slt, h0, decide_eq_true_eq]; exact h1)]
    rw [e]
    by_cases h2 : (63 : Int) < w.toInt
    · have e2 : IntOp.minsi 63#32 w = 63#32 := by
        unfold IntOp.minsi; rw [if_pos (by simp only [BitVec.slt, h63, decide_eq_true_eq]; exact h2)]
      rw [e2]
      show 63 = _
      omega
    · have e2 : IntOp.minsi 63#32 w = w := by
        unfold IntOp.minsi; rw [if_neg (by simp only [BitVec.slt, h63, decide_eq_true_eq]; exact h2)]
      rw [e2]
      have hw := BitVec.toInt_eq_toNat_cond w
      have hlt := w.isLt
      split at hw <;> omega

/-- Word `s` of the table, read unsigned, is the expert `Moe.pick` selects from id `s`. -/
theorem tbl_toNat (x : S64.Idx) :
    (tbl m 0 x).toNat = (Moe.pick (m (((0 : Dev nD) : Thread nD τ).loc main_arg4) x)).val := by
  rw [tbl_eq]
  exact clamp_toNat _

theorem tbl_lt (x : S64.Idx) : (tbl m 0 x).toNat < 64 := by
  rw [tbl_toNat]; exact (Moe.pick _).isLt

/-- Any table of words below 64 meets the pipeline's side condition: the three weight windows' blocks are inside their arrays. -/
theorem ok_of_lt (pf : pre0.Contents (Elt F)) (h : ∀ x, (pf 0 x).toNat < 64) : ok0 pf := by
  refine ⟨fun i => ?_, fun i => ?_, fun i => ?_⟩
  · obtain ⟨w, hw, e⟩ : ∃ w : BitVec 32, w.toNat < 64 ∧ cc0_transform_1 k0_off1_inb numel1_S1 pf i = ![w.toNat, 0, 0] := ⟨_, h _, rfl⟩
    refine ⟨fun a => ?_, Or.inl rfl⟩
    rw [e]
    fin_cases a <;> simp [S1x1024x1024, S64x1024x1024] <;> omega
  · obtain ⟨w, hw, e⟩ : ∃ w : BitVec 32, w.toNat < 64 ∧ cc0_transform_2 k0_off1_inb numel1_S1 pf i = ![w.toNat, 0, 0] := ⟨_, h _, rfl⟩
    refine ⟨fun a => ?_, Or.inl rfl⟩
    rw [e]
    fin_cases a <;> simp [S1x1024x1024, S64x1024x1024] <;> omega
  · obtain ⟨w, hw, e⟩ : ∃ w : BitVec 32, w.toNat < 64 ∧ cc0_transform_3 k0_off1_inb numel1_S1 pf i = ![w.toNat, 0, 0] := ⟨_, h _, rfl⟩
    refine ⟨fun a => ?_, Or.inl rfl⟩
    rw [e]
    fin_cases a <;> simp [S1x1024x1024, S64x1024x1024] <;> omega

/-- THE SIDE CONDITION, of every launch memory. -/
theorem ok : Ok m := ok_of_lt (tbl m) (tbl_lt m)

end Cert.Kernel.Table

end
-- ==== Proof.TableIdeal.lean ====
/-
  The table of expert rows the weight windows' index maps read, and the pipeline's side condition of it.

  Before the region the program clamps every expert id into 0 … 63 as a signed word (`min 63 (max 0 id)`) and hands
  the 64 clamped words to the region as its prefetched table (`tbl_eq`). A clamped word, read unsigned, is the id read
  as a signed integer and clamped into 0 … 63 (`clamp_toNat`): `Moe.pick` of the id. So every word is below 64, and the
  block of a weight array the index map names at any grid point — expert row `word`, all of the two inner axes — lies
  inside the `64 × 1024 × 1024` array (`ok`): the side condition holds for every launch memory, whatever the ids are.
-/
import proofs.«412031_j69234872811781_3_alg».proof.Proof.Gen.KernelIdeal.Frame
import proofs.«412031_j69234872811781_3_alg».proof.Proof.Spec
import Idealize.ShloMosaic.Lib.StableHlo.Run
import Idealize.ShloMosaic.Lib.ValueIdx

set_option maxRecDepth 16384

noncomputable section

namespace Cert.KernelIdeal.Table

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-- The table the region is entered with: the launched expert ids, each clamped into 0 … 63. -/
theorem tbl_eq : tbl m 0 = minsi (broadcastInDim S64 ![] bcast_S_S64 (constantI S_ 32 63#32))
    (maxsi (broadcastInDim S64 ![] bcast_S_S64 (constantI S_ 32 0#32)) (m (((0 : Dev nD) : Thread nD τ).loc main_arg4))) := by
  unfold tbl
  show V m 0 main_v0 = _
  dsimp only [V]
  simp only [hostOps0, hostOps0_1, List.flatten_cons, List.flatten_nil, List.append_nil, List.cons_append, List.nil_append]
  after_results
  rfl

/-- A signed clamp into 0 … 63, read unsigned, is the word's signed value clamped into 0 … 63. -/
theorem clamp_toNat (w : BitVec 32) : (IntOp.minsi 63#32 (IntOp.maxsi 0#32 w)).toNat = min w.toInt.toNat 63 := by
  have h0 : (0#32 : BitVec 32).toInt = 0 := by decide
  have h63 : (63#32 : BitVec 32).toInt = 63 := by decide
  by_cases h1 : w.toInt < 0
  · have e : IntOp.maxsi 0#32 w = 0#32 := by
      unfold IntOp.maxsi; rw [if_pos (by simp only [BitVec.slt, h0, decide_eq_true_eq]; exact h1)]
    rw [e, show IntOp.minsi 63#32 0#32 = 0#32 from by decide]
    show 0 = _
    omega
  · have e : IntOp.maxsi 0#32 w = w := by
      unfold IntOp.maxsi; rw [if_neg (by simp only [BitVec.slt, h0, decide_eq_true_eq]; exact h1)]
    rw [e]
    by_cases h2 : (63 : Int) < w.toInt
    · have e2 : IntOp.minsi 63#32 w = 63#32 := by
        unfold IntOp.minsi; rw [if_pos (by simp only [BitVec.slt, h63, decide_eq_true_eq]; exact h2)]
      rw [e2]
      show 63 = _
      omega
    · have e2 : IntOp.minsi 63#32 w = w := by
        unfold IntOp.minsi; rw [if_neg (by simp only [BitVec.slt, h63, decide_eq_true_eq]; exact h2)]
      rw [e2]
      have hw := BitVec.toInt_eq_toNat_cond w
      have hlt := w.isLt
      split at hw <;> omega

/-- Word `s` of the table, read unsigned, is the expert `Moe.pick` selects from id `s`. -/
theorem tbl_toNat (x : S64.Idx) :
    (tbl m 0 x).toNat = (Moe.pick (m (((0 : Dev nD) : Thread nD τ).loc main_arg4) x)).val := by
  rw [tbl_eq]
  exact clamp_toNat _

theorem tbl_lt (x : S64.Idx) : (tbl m 0 x).toNat < 64 := by
  rw [tbl_toNat]; exact (Moe.pick _).isLt

/-- Any table of words below 64 meets the pipeline's side condition: the three weight windows' blocks are inside their arrays. -/
theorem ok_of_lt (pf : pre0.Contents (Elt F)) (h : ∀ x, (pf 0 x).toNat < 64) : ok0 pf := by
  refine ⟨fun i => ?_, fun i => ?_, fun i => ?_⟩
  · obtain ⟨w, hw, e⟩ : ∃ w : BitVec 32, w.toNat < 64 ∧ cc0_transform_1 k0_off1_inb numel1_S1 pf i = ![w.toNat, 0, 0] := ⟨_, h _, rfl⟩
    refine ⟨fun a => ?_, Or.inl rfl⟩
    rw [e]
    fin_cases a <;> simp [S1x1024x1024, S64x1024x1024] <;> omega
  · obtain ⟨w, hw, e⟩ : ∃ w : BitVec 32, w.toNat < 64 ∧ cc0_transform_2 k0_off1_inb numel1_S1 pf i = ![w.toNat, 0, 0] := ⟨_, h _, rfl⟩
    refine ⟨fun a => ?_, Or.inl rfl⟩
    rw [e]
    fin_cases a <;> simp [S1x1024x1024, S64x1024x1024] <;> omega
  · obtain ⟨w, hw, e⟩ : ∃ w : BitVec 32, w.toNat < 64 ∧ cc0_transform_3 k0_off1_inb numel1_S1 pf i = ![w.toNat, 0, 0] := ⟨_, h _, rfl⟩
    refine ⟨fun a => ?_, Or.inl rfl⟩
    rw [e]
    fin_cases a <;> simp [S1x1024x1024, S64x1024x1024] <;> omega

/-- THE SIDE CONDITION, of every launch memory. -/
theorem ok : Ok m := ok_of_lt (tbl m) (tbl_lt m)

end Cert.KernelIdeal.Table

end
-- ==== Proof.Body.lean ====
/-
  What one run of the kernel body leaves in its output block, as a value.

  The body loads the token block `x0` (32 rows of 1024 activations) and, of the selected expert's three weight blocks,
  the low and the high 512 hidden features one after the other: rows `[0, 512)` and `[512, 1024)` of the gate and up
  weights, columns `[0, 512)` and `[512, 1024)` of the down weights. Per half it forms the gate and up projections
  (`projHalf`: a product with the transposed weight rows, into a zero accumulator), the SwiGLU hidden values
  (`hidHalf`: gate · logistic gate · up) and their down projection (`downHalf`); the two down projections are added
  to a zero block in turn and stored. `out_eq` reads this off the run's one covering store, at any float instance.

  At the ideal instance every format change is the identity, a product into a zero accumulator is the plain sum of
  products over the contracted axis, and the logistic is the extended reals'; so at row `t`, column `d` the block
  holds `Moe.mlpRow` of row `t` of `x0` and the three weight blocks (`bodyVal_apply`): the two half sums are the whole
  sum over the hidden axis (`Moe.mlpRow_halves`).
-/
import proofs.«412031_j69234872811781_3_alg».proof.Proof.Gen.KernelIdeal.Frame
import proofs.«412031_j69234872811781_3_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.SL.Sem Idealize.ShloMosaic.Tactic Idealize.ShloMosaic.ValueIdx

variable {F : FTy → Type} [FloatOps F]

/-! ## The body's value, at any float instance -/

/-- Gate or up projection of one half: the token block times the transposed weight rows of the half. -/
def projHalf (x0 : Vec F S32x1024 .f32) (v : Vec F S1x512x1024 .f32) : FVec F S32x512 .f32 :=
  matmul dot_S32x1024_S512x1024_S32x512_1_1_0_0_n_n none (k0_pay2 x0)
    (truncf .bf16 (shapeCast S512x1024 v shapeCasts_S1x512x1024_S512x1024) bitsLt_bf16_f32) (constant S32x512 .f32 0x00000000#32)

/-- The SwiGLU hidden values of one half: gate · logistic gate · up. -/
def hidHalf (x0 : Vec F S32x1024 .f32) (vg vu : Vec F S1x512x1024 .f32) : FVec F S32x512 .f32 :=
  mulf (mulf (projHalf x0 vg) (logistic (projHalf x0 vg))) (projHalf x0 vu)

/-- The down projection of one half's hidden values: times the transposed down-weight columns of the half. -/
def downHalf (h : FVec F S32x512 .f32) (v : FVec F S1024x512 .f32) : FVec F S32x1024 .f32 :=
  matmul dot_S32x512_S1024x512_S32x1024_1_1_0_0_n_n none (truncf .bf16 h bitsLt_bf16_f32)
    (truncf .bf16 v bitsLt_bf16_f32) (constant S32x1024 .f32 0x00000000#32)

/-- What the body stores: the zero block plus the low half's down projection, plus the high half's. -/
def bodyVal (x0 : Vec F S32x1024 .f32) (x1 x2 x3 : Vec F S1x1024x1024 .f32) : Vec F S32x1024 .f32 :=
  k0_pay1
    (k0_pay3 x0 (View.ld x1 (Rect.unit ![0, 0, 0] S1x512x1024.size inb_S1x1024x1024_S1x512x1024_0_0_0))
      (View.ld x2 (Rect.unit ![0, 0, 0] S1x512x1024.size inb_S1x1024x1024_S1x512x1024_0_0_0))
      (View.ld x3 (Rect.unit ![0, 0, 0] S1x1024x512.size inb_S1x1024x1024_S1x1024x512_0_0_0)))
    (k0_pay4 x0 (View.ld x1 (Rect.unit ![0, 512, 0] S1x512x1024.size inb_S1x1024x1024_S1x512x1024_0_512_0))
      (View.ld x2 (Rect.unit ![0, 512, 0] S1x512x1024.size inb_S1x1024x1024_S1x512x1024_0_512_0)))
    (k0_pay5 (View.ld x3 (Rect.unit ![0, 0, 512] S1x1024x512.size inb_S1x1024x1024_S1x1024x512_0_0_512)))

theorem zero2 : (![0, 0] : Fin 2 → Nat) = fun _ => 0 := funext fun a => by fin_cases a <;> rfl

/-- The run's output pieces read back are the body's value: its one store covers the block, its loads read the input
    blocks through their rectangles. -/
theorem out_eq (c : Dev nD) (i : grid0.Coords) (a2 : Memref sig .tc .vmem S32x1024 .f32) (h2 : a2.IsWhole)
    (a3 : Memref sig .tc .vmem S1x1024x1024 .f32) (h3 : a3.IsWhole) (a4 : Memref sig .tc .vmem S1x1024x1024 .f32) (h4 : a4.IsWhole)
    (a5 : Memref sig .tc .vmem S1x1024x1024 .f32) (h5 : a5.IsWhole) (a6 : Memref sig .tc .vmem S32x1024 .f32) (h6 : a6.IsWhole)
    (x0 : Vec F S32x1024 .f32) (x1 x2 x3 : Vec F S1x1024x1024 .f32) (xt0 : TbBuf0 (F := F) c tbM0_0) :
    out0_A_4 c i a2 h2 a3 h3 a4 h4 a5 h5 a6 h6 x0 x1 x2 x3 xt0 = bodyVal x0 x1 x2 x3 := by
  unfold out0_A_4
  rw [View.read_writes_eq_canon _ _ _ (cover0_A_4 c i a2 h2 a3 h3 a4 h4 a5 h5 a6 h6 x0 x1 x2 x3 xt0)]
  unfold kernelRun0_A
  dsimp only
  sl_unfold_words
  rw [View.canon_unit_zero zero2]
  simp only [View.readAt_eq_ld, h2.read_unread, h3.read_unread, h4.read_unread, h5.read_unread, View.ld_unit_zero (S := S32x1024) zero2]
  rfl

/-- The stored value in terms of the halves. -/
theorem bodyVal_eq (x0 : Vec F S32x1024 .f32) (x1 x2 x3 : Vec F S1x1024x1024 .f32) :
    bodyVal x0 x1 x2 x3
      = addf (addf (broadcast S32x1024 (Scalar.ofBits .f32 0x00000000#32))
          (downHalf (hidHalf x0 (View.ld x1 (Rect.unit ![0, 0, 0] S1x512x1024.size inb_S1x1024x1024_S1x512x1024_0_0_0))
              (View.ld x2 (Rect.unit ![0, 0, 0] S1x512x1024.size inb_S1x1024x1024_S1x512x1024_0_0_0)))
            (shapeCast S1024x512 (View.ld x3 (Rect.unit ![0, 0, 0] S1x1024x512.size inb_S1x1024x1024_S1x1024x512_0_0_0)) shapeCasts_S1x1024x512_S1024x512)))
        (downHalf (hidHalf x0 (View.ld x1 (Rect.unit ![0, 512, 0] S1x512x1024.size inb_S1x1024x1024_S1x512x1024_0_512_0))
            (View.ld x2 (Rect.unit ![0, 512, 0] S1x512x1024.size inb_S1x1024x1024_S1x512x1024_0_512_0)))
          (shapeCast S1024x512 (View.ld x3 (Rect.unit ![0, 0, 512] S1x1024x512.size inb_S1x1024x1024_S1x1024x512_0_0_512)) shapeCasts_S1x1024x512_S1024x512)) := rfl

/-! ## At the ideal instance: sums over the contracted axes -/

section AtIdeal

theorem lhsP_0 (i : S32x512.Idx) (q : dot_S32x1024_S512x1024_S32x512_1_1_0_0_n_n.contr.Idx) :
    (dot_S32x1024_S512x1024_S32x512_1_1_0_0_n_n.lhsIdx i q 0).val = (i 0).val := by
  unfold DotDims.lhsIdx
  rw [dif_neg (show ¬(0 : Fin S32x1024.rank) ∈ dot_S32x1024_S512x1024_S32x512_1_1_0_0_n_n.lhsBatch by decide), dif_pos (show (0 : Fin S32x1024.rank) ∈ dot_S32x1024_S512x1024_S32x512_1_1_0_0_n_n.lhsNonContracting by decide)]
  rfl
theorem lhsP_1 (i : S32x512.Idx) (q : dot_S32x1024_S512x1024_S32x512_1_1_0_0_n_n.contr.Idx) :
    (dot_S32x1024_S512x1024_S32x512_1_1_0_0_n_n.lhsIdx i q 1).val = (q ⟨0, by decide⟩).val :=
  dot_S32x1024_S512x1024_S32x512_1_1_0_0_n_n.lhsIdx_val_of_single rfl i q
theorem rhsP_0 (i : S32x512.Idx) (q : dot_S32x1024_S512x1024_S32x512_1_1_0_0_n_n.contr.Idx) :
    (dot_S32x1024_S512x1024_S32x512_1_1_0_0_n_n.rhsIdx i q 0).val = (i 1).val := by
  unfold DotDims.rhsIdx
  rw [dif_neg (show ¬(0 : Fin S512x1024.rank) ∈ dot_S32x1024_S512x1024_S32x512_1_1_0_0_n_n.rhsBatch by decide), dif_pos (show (0 : Fin S512x1024.rank) ∈ dot_S32x1024_S512x1024_S32x512_1_1_0_0_n_n.rhsNonContracting by decide)]
  rfl
theorem rhsP_1 (i : S32x512.Idx) (q : dot_S32x1024_S512x1024_S32x512_1_1_0_0_n_n.contr.Idx) :
    (dot_S32x1024_S512x1024_S32x512_1_1_0_0_n_n.rhsIdx i q 1).val = (q ⟨0, by decide⟩).val :=
  dot_S32x1024_S512x1024_S32x512_1_1_0_0_n_n.rhsIdx_val_of_single rfl i q

/-- A projection product read at row `t`, feature `q`: the sum over the 1024 activations. -/
theorem proj_mm_apply (xb : FVec Ideal S32x1024 .bf16) (w : FVec Ideal S512x1024 .bf16) (t : Fin 32) (q : Fin 512) :
    matmul dot_S32x1024_S512x1024_S32x512_1_1_0_0_n_n none xb w (constant S32x512 .f32 0x00000000#32) (ix2 t q)
      = ∑ k : Fin 1024, xb (ix2 t k) * w (ix2 q k) := by
  simp only [matmul]
  rw [Ideal.matmul_constant_zero_apply, ← Equiv.sum_comp (ValueIdx.contrEquiv1 dot_S32x1024_S512x1024_S32x512_1_1_0_0_n_n 1024 rfl rfl).symm]
  refine Finset.sum_congr rfl fun k _ => ?_
  have hk := ValueIdx.contrEquiv1_symm_val dot_S32x1024_S512x1024_S32x512_1_1_0_0_n_n 1024 rfl rfl k
  have el : dot_S32x1024_S512x1024_S32x512_1_1_0_0_n_n.lhsIdx (ix2 t q) ((ValueIdx.contrEquiv1 dot_S32x1024_S512x1024_S32x512_1_1_0_0_n_n 1024 rfl rfl).symm k) = ix2 t k := funext fun a => Fin.ext (by
    match a with
    | ⟨0, _⟩ => exact lhsP_0 _ _
    | ⟨1, _⟩ => exact (lhsP_1 _ _).trans hk)
  have er : dot_S32x1024_S512x1024_S32x512_1_1_0_0_n_n.rhsIdx (ix2 t q) ((ValueIdx.contrEquiv1 dot_S32x1024_S512x1024_S32x512_1_1_0_0_n_n 1024 rfl rfl).symm k) = ix2 q k := funext fun a => Fin.ext (by
    match a with
    | ⟨0, _⟩ => exact rhsP_0 _ _
    | ⟨1, _⟩ => exact (rhsP_1 _ _).trans hk)
  rw [el, er]

theorem lhsD_0 (i : S32x1024.Idx) (q : dot_S32x512_S1024x512_S32x1024_1_1_0_0_n_n.contr.Idx) :
    (dot_S32x512_S1024x512_S32x1024_1_1_0_0_n_n.lhsIdx i q 0).val = (i 0).val := by
  unfold DotDims.lhsIdx
  rw [dif_neg (show ¬(0 : Fin S32x512.rank) ∈ dot_S32x512_S1024x512_S32x1024_1_1_0_0_n_n.lhsBatch by decide), dif_pos (show (0 : Fin S32x512.rank) ∈ dot_S32x512_S1024x512_S32x1024_1_1_0_0_n_n.lhsNonContracting by decide)]
  rfl
theorem lhsD_1 (i : S32x1024.Idx) (q : dot_S32x512_S1024x512_S32x1024_1_1_0_0_n_n.contr.Idx) :
    (dot_S32x512_S1024x512_S32x1024_1_1_0_0_n_n.lhsIdx i q 1).val = (q ⟨0, by decide⟩).val :=
  dot_S32x512_S1024x512_S32x1024_1_1_0_0_n_n.lhsIdx_val_of_single rfl i q
theorem rhsD_0 (i : S32x1024.Idx) (q : dot_S32x512_S1024x512_S32x1024_1_1_0_0_n_n.contr.Idx) :
    (dot_S32x512_S1024x512_S32x1024_1_1_0_0_n_n.rhsIdx i q 0).val = (i 1).val := by
  unfold DotDims.rhsIdx
  rw [dif_neg (show ¬(0 : Fin S1024x512.rank) ∈ dot_S32x512_S1024x512_S32x1024_1_1_0_0_n_n.rhsBatch by decide), dif_pos (show (0 : Fin S1024x512.rank) ∈ dot_S32x512_S1024x512_S32x1024_1_1_0_0_n_n.rhsNonContracting by decide)]
  rfl
theorem rhsD_1 (i : S32x1024.Idx) (q : dot_S32x512_S1024x512_S32x1024_1_1_0_0_n_n.contr.Idx) :
    (dot_S32x512_S1024x512_S32x1024_1_1_0_0_n_n.rhsIdx i q 1).val = (q ⟨0, by decide⟩).val :=
  dot_S32x512_S1024x512_S32x1024_1_1_0_0_n_n.rhsIdx_val_of_single rfl i q

/-- The down product read at row `t`, column `d`: the sum over the half's 512 hidden features. -/
theorem down_mm_apply (hb : FVec Ideal S32x512 .bf16) (w : FVec Ideal S1024x512 .bf16) (t : Fin 32) (d : Fin 1024) :
    matmul dot_S32x512_S1024x512_S32x1024_1_1_0_0_n_n none hb w (constant S32x1024 .f32 0x00000000#32) (ix2 t d)
      = ∑ q : Fin 512, hb (ix2 t q) * w (ix2 d q) := by
  simp only [matmul]
  rw [Ideal.matmul_constant_zero_apply, ← Equiv.sum_comp (ValueIdx.contrEquiv1 dot_S32x512_S1024x512_S32x1024_1_1_0_0_n_n 512 rfl rfl).symm]
  refine Finset.sum_congr rfl fun k _ => ?_
  have hk := ValueIdx.contrEquiv1_symm_val dot_S32x512_S1024x512_S32x1024_1_1_0_0_n_n 512 rfl rfl k
  have el : dot_S32x512_S1024x512_S32x1024_1_1_0_0_n_n.lhsIdx (ix2 t d) ((ValueIdx.contrEquiv1 dot_S32x512_S1024x512_S32x1024_1_1_0_0_n_n 512 rfl rfl).symm k) = ix2 t k := funext fun a => Fin.ext (by
    match a with
    | ⟨0, _⟩ => exact lhsD_0 _ _
    | ⟨1, _⟩ => exact (lhsD_1 _ _).trans hk)
  have er : dot_S32x512_S1024x512_S32x1024_1_1_0_0_n_n.rhsIdx (ix2 t d) ((ValueIdx.contrEquiv1 dot_S32x512_S1024x512_S32x1024_1_1_0_0_n_n 512 rfl rfl).symm k) = ix2 d k := funext fun a => Fin.ext (by
    match a with
    | ⟨0, _⟩ => exact rhsD_0 _ _
    | ⟨1, _⟩ => exact (rhsD_1 _ _).trans hk)
  rw [el, er]

/-- Dropping the leading unit axis of a weight half reads `(q, k)` at `(0, q, k)`. -/
theorem cast_rows (v : FVec Ideal S1x512x1024 .f32) (q : Fin 512) (k : Fin 1024) :
    shapeCast S512x1024 v shapeCasts_S1x512x1024_S512x1024 (ix2 q k) = v (ix3 (0 : Fin 1) q k) :=
  shapeCast_apply v shapeCasts_S1x512x1024_S512x1024 (ix2 q k) (ix3 (0 : Fin 1) q k)
    (by rewrite [Shape.rowMajor_val_three, Shape.rowMajor_val_two]; show ((0 : Nat) * 512 + q.val) * 1024 + k.val = q.val * 1024 + k.val; omega)
theorem cast_cols (v : FVec Ideal S1x1024x512 .f32) (d : Fin 1024) (q : Fin 512) :
    shapeCast S1024x512 v shapeCasts_S1x1024x512_S1024x512 (ix2 d q) = v (ix3 (0 : Fin 1) d q) :=
  shapeCast_apply v shapeCasts_S1x1024x512_S1024x512 (ix2 d q) (ix3 (0 : Fin 1) d q)
    (by rewrite [Shape.rowMajor_val_three, Shape.rowMajor_val_two]; show ((0 : Nat) * 1024 + d.val) * 512 + q.val = d.val * 512 + q.val; omega)

/-- A half's projection at row `t`, feature `q`. -/
theorem projHalf_apply (x0 : FVec Ideal S32x1024 .f32) (v : FVec Ideal S1x512x1024 .f32) (t : Fin 32) (q : Fin 512) :
    projHalf x0 v (ix2 t q) = ∑ k : Fin 1024, x0 (ix2 t k) * v (ix3 (0 : Fin 1) q k) := by
  unfold projHalf
  refine (proj_mm_apply _ _ t q).trans ?_
  refine Finset.sum_congr rfl fun k _ => ?_
  show x0 (ix2 t k) * shapeCast S512x1024 v shapeCasts_S1x512x1024_S512x1024 (ix2 q k) = _
  rw [cast_rows]

/-- A half's hidden value at row `t`, feature `q`. -/
theorem hidHalf_apply (x0 : FVec Ideal S32x1024 .f32) (vg vu : FVec Ideal S1x512x1024 .f32) (t : Fin 32) (q : Fin 512) :
    hidHalf x0 vg vu (ix2 t q)
      = ((∑ k : Fin 1024, x0 (ix2 t k) * vg (ix3 (0 : Fin 1) q k)) * Ideal.logistic (∑ k : Fin 1024, x0 (ix2 t k) * vg (ix3 (0 : Fin 1) q k)))
        * (∑ k : Fin 1024, x0 (ix2 t k) * vu (ix3 (0 : Fin 1) q k)) := by
  show (projHalf (F := Ideal) x0 vg (ix2 t q) * Ideal.logistic (projHalf (F := Ideal) x0 vg (ix2 t q))) * projHalf (F := Ideal) x0 vu (ix2 t q) = _
  rw [projHalf_apply, projHalf_apply]

/-- A half's down projection at row `t`, column `d`. -/
theorem downHalf_apply (h : FVec Ideal S32x512 .f32) (v : FVec Ideal S1024x512 .f32) (t : Fin 32) (d : Fin 1024) :
    downHalf h v (ix2 t d) = ∑ q : Fin 512, h (ix2 t q) * v (ix2 d q) := by
  unfold downHalf
  exact down_mm_apply _ _ t d

/-- The low and high halves of a weight block read through their rectangles: rows (gate, up) and columns (down). -/
theorem ld_rows_lo (x : Vec Ideal S1x1024x1024 .f32) (q : Fin 512) (k : Fin 1024) :
    View.ld x (Rect.unit ![0, 0, 0] S1x512x1024.size inb_S1x1024x1024_S1x512x1024_0_0_0) (ix3 (0 : Fin 1) q k)
      = x (ix3 (0 : Fin 1) (Moe.lo q) k) := by
  show x _ = x _
  refine congrArg x (funext fun a => Fin.ext ?_)
  match a with
  | ⟨0, _⟩ => rfl
  | ⟨1, _⟩ => show 0 + 1 * q.val = q.val; omega
  | ⟨2, _⟩ => show 0 + 1 * k.val = k.val; omega
theorem ld_rows_hi (x : Vec Ideal S1x1024x1024 .f32) (q : Fin 512) (k : Fin 1024) :
    View.ld x (Rect.unit ![0, 512, 0] S1x512x1024.size inb_S1x1024x1024_S1x512x1024_0_512_0) (ix3 (0 : Fin 1) q k)
      = x (ix3 (0 : Fin 1) (Moe.hi q) k) := by
  show x _ = x _
  refine congrArg x (funext fun a => Fin.ext ?_)
  match a with
  | ⟨0, _⟩ => rfl
  | ⟨1, _⟩ => show 512 + 1 * q.val = 512 + q.val; omega
  | ⟨2, _⟩ => show 0 + 1 * k.val = k.val; omega
theorem ld_cols_lo (x : Vec Ideal S1x1024x1024 .f32) (d : Fin 1024) (q : Fin 512) :
    View.ld x (Rect.unit ![0, 0, 0] S1x1024x512.size inb_S1x1024x1024_S1x1024x512_0_0_0) (ix3 (0 : Fin 1) d q)
      = x (ix3 (0 : Fin 1) d (Moe.lo q)) := by
  show x _ = x _
  refine congrArg x (funext fun a => Fin.ext ?_)
  match a with
  | ⟨0, _⟩ => rfl
  | ⟨1, _⟩ => show 0 + 1 * d.val = d.val; omega
  | ⟨2, _⟩ => show 0 + 1 * q.val = q.val; omega
theorem ld_cols_hi (x : Vec Ideal S1x1024x1024 .f32) (d : Fin 1024) (q : Fin 512) :
    View.ld x (Rect.unit ![0, 0, 512] S1x1024x512.size inb_S1x1024x1024_S1x1024x512_0_0_512) (ix3 (0 : Fin 1) d q)
      = x (ix3 (0 : Fin 1) d (Moe.hi q)) := by
  show x _ = x _
  refine congrArg x (funext fun a => Fin.ext ?_)
  match a with
  | ⟨0, _⟩ => rfl
  | ⟨1, _⟩ => show 0 + 1 * d.val = d.val; omega
  | ⟨2, _⟩ => show 512 + 1 * q.val = 512 + q.val; omega

/-- THE BLOCK'S VALUE: row `t`, column `d` of what the body stores is row `t` of the token block through the expert whose
    weight blocks were fetched. -/
theorem bodyVal_apply (x0 : FVec Ideal S32x1024 .f32) (x1 x2 x3 : FVec Ideal S1x1024x1024 .f32) (t : Fin 32) (d : Fin 1024) :
    bodyVal (F := Ideal) x0 x1 x2 x3 (ix2 t d)
      = Moe.mlpRow (fun k => x0 (ix2 t k)) (fun f k => x1 (ix3 (0 : Fin 1) f k)) (fun f k => x2 (ix3 (0 : Fin 1) f k))
          (fun d' f => x3 (ix3 (0 : Fin 1) d' f)) d := by
  rw [bodyVal_eq, addf_apply, addf_apply, broadcast_apply, downHalf_apply, downHalf_apply, Moe.mlpRow_halves]
  have hz : (Scalar.ofBits (F := Ideal) .f32 0x00000000#32 : EReal) = 0 := Ideal.ofBits_zero_f32
  rw [hz]
  refine congrArg₂ (· + ·) (congrArg (0 + ·) (Finset.sum_congr rfl fun q _ => ?_)) (Finset.sum_congr rfl fun q _ => ?_)
  · rw [hidHalf_apply, cast_cols, ld_cols_lo]
    have s : ∀ x : Vec Ideal S1x1024x1024 .f32,
        (∑ k : Fin 1024, x0 (ix2 t k) * View.ld x (Rect.unit ![0, 0, 0] S1x512x1024.size inb_S1x1024x1024_S1x512x1024_0_0_0) (ix3 (0 : Fin 1) q k))
          = ∑ k : Fin 1024, x0 (ix2 t k) * x (ix3 (0 : Fin 1) (Moe.lo q) k) :=
      fun x => Finset.sum_congr rfl fun k _ => by rw [ld_rows_lo]
    rw [s x1, s x2]
  · rw [hidHalf_apply, cast_cols, ld_cols_hi]
    have s : ∀ x : Vec Ideal S1x1024x1024 .f32,
        (∑ k : Fin 1024, x0 (ix2 t k) * View.ld x (Rect.unit ![0, 512, 0] S1x512x1024.size inb_S1x1024x1024_S1x512x1024_0_512_0) (ix3 (0 : Fin 1) q k))
          = ∑ k : Fin 1024, x0 (ix2 t k) * x (ix3 (0 : Fin 1) (Moe.hi q) k) :=
      fun x => Finset.sum_congr rfl fun k _ => by rw [ld_rows_hi]
    rw [s x1, s x2]

end AtIdeal

end Cert.KernelIdeal.Body

end
-- ==== Proof.Windows.lean ====
/-
  Where the five windows of the pipeline sit in their arrays, at any contents of the table.

  The grid has 64 points, one per segment of 32 token rows, and its one coordinate is the point's number
  (`coord_val`). The token window (0) and the result window (4) are at block `(t, 0)` at point `t` (`tr0`, `tr4`): rows
  `32t … 32t+31`, all columns. Each weight window (1, 2, 3) is at block `(word, 0, 0)`, `word` the table's entry at position
  `t` read unsigned (`tr1`, `tr2`, `tr3`: the index maps load it through a unit rectangle at offset `t`, `unit_first`):
  one expert's whole slab. So an index of a staged block sits in its array at the block's offset plus the index
  (`emb_x`, `emb_o`, `emb_w1`, `emb_w2`, `emb_w3`). Everything here is stated for an arbitrary admissible table `a`.
-/
import proofs.«412031_j69234872811781_3_alg».proof.Proof.Gen.KernelIdeal.Frame
import proofs.«412031_j69234872811781_3_alg».proof.Proof.Spec
import Idealize.ShloMosaic.Lib.Pipeline.Value
import Idealize.ShloMosaic.Lib.ValueIdx

set_option maxRecDepth 16384

noncomputable section

namespace Cert.KernelIdeal.Windows

open Cert.KernelIdeal Cert.KernelIdeal.Gen
open Idealize.ShloMosaic Idealize.ShloMosaic.TcCoe Idealize.SL.Sem Idealize.ShloMosaic.ValueIdx
open Idealize.ShloMosaic.Pipeline (Dat)

/-! ## The index maps, at any contents of the table -/

section Structure

variable {F : FTy → Type} [FloatOps F]

/-- The grid's one coordinate is the point's number. -/
theorem coord_val : ∀ t : Fin grid0.N, (grid0.coords t 0).val = t.val := by decide +kernel

theorem index0 (a : (pcfg0 (F := F)).Adm) (t : Fin (cfg0 a).N) : ((cfg0 a).win 0).index t = cc0_transform_0 (grid0.coords t) := rfl
theorem index1 (a : (pcfg0 (F := F)).Adm) (t : Fin (cfg0 a).N) :
    ((cfg0 a).win 1).index t = cc0_transform_1 Facts₀.k0_off1_inb Facts₀.numel1_S1 a.1 (grid0.coords t) := rfl
theorem index2 (a : (pcfg0 (F := F)).Adm) (t : Fin (cfg0 a).N) :
    ((cfg0 a).win 2).index t = cc0_transform_2 Facts₀.k0_off1_inb Facts₀.numel1_S1 a.1 (grid0.coords t) := rfl
theorem index3 (a : (pcfg0 (F := F)).Adm) (t : Fin (cfg0 a).N) :
    ((cfg0 a).win 3).index t = cc0_transform_3 Facts₀.k0_off1_inb Facts₀.numel1_S1 a.1 (grid0.coords t) := rfl
theorem index4 (a : (pcfg0 (F := F)).Adm) (t : Fin (cfg0 a).N) : ((cfg0 a).win 4).index t = cc0_transform_4 (grid0.coords t) := rfl

/-- The token window and the result window move one block of rows per point. -/
theorem tr0 : ∀ t : Fin grid0.N, cc0_transform_0 (grid0.coords t) = ![t.val, 0] := by decide +kernel
theorem tr4 : ∀ t : Fin grid0.N, cc0_transform_4 (grid0.coords t) = ![t.val, 0] := by decide +kernel

/-- The one index of a unit rectangle at offset `n` of the 64-word table is index `n`. -/
theorem unit_first (n : Fin 64) (off : Fin 1 → Nat) (hoff : off 0 = n.val) (inb : ∀ a, off a + S1.size a ≤ S64.size a)
    (h1 : 0 < S1.numel) : (Rect.unit (s := S64) off S1.size inb).emb (Shape.Idx.first h1) = ix1 n := by
  funext a
  apply Fin.ext
  match a with
  | ⟨0, _⟩ =>
    show off 0 + 1 * (Shape.Idx.first h1 (0 : Fin 1)).val = n.val
    have h0 : (Shape.Idx.first h1 (0 : Fin 1)).val = 0 := by
      have := (Shape.Idx.first h1 (0 : Fin 1)).isLt
      have e : S1.size (0 : Fin 1) = 1 := by decide
      omega
    rw [h0, hoff]; omega

/-- The grid coordinate as a position in the table. -/
def pos (i : grid0.Coords) : Fin 64 := ⟨(i 0).val, (i 0).isLt⟩

theorem off_pos (i : grid0.Coords) : (![(Scalar.indexCast (BitVec.ofNat 32 (i 0).val)).toNat] : Fin 1 → Nat) 0 = (pos i).val := by
  show (BitVec.ofNat 32 (i 0).val).toNat = (i 0).val
  have h : (i 0).val < 64 := (i 0).isLt
  rw [BitVec.toNat_ofNat]
  exact Nat.mod_eq_of_lt (by omega)

/-- A weight window's block index at coordinates `i`: expert slab "table word at position `i 0`", the whole inner axes. -/
theorem tr1 (pf : pre0.Contents (Elt F)) (i : grid0.Coords) :
    cc0_transform_1 Facts₀.k0_off1_inb Facts₀.numel1_S1 pf i = ![(pf 0 (ix1 (pos i))).toNat, 0, 0] :=
  congrArg (fun w : BitVec 32 => (![w.toNat, (0#32 : BitVec 32).toNat, (0#32 : BitVec 32).toNat] : Fin 3 → Nat))
    (congrArg (pf 0) (unit_first (pos i) _ (off_pos i) (Facts₀.k0_off1_inb i) (Facts₀.numel1_S1.symm ▸ Nat.one_pos)))
theorem tr2 (pf : pre0.Contents (Elt F)) (i : grid0.Coords) :
    cc0_transform_2 Facts₀.k0_off1_inb Facts₀.numel1_S1 pf i = ![(pf 0 (ix1 (pos i))).toNat, 0, 0] :=
  congrArg (fun w : BitVec 32 => (![w.toNat, (0#32 : BitVec 32).toNat, (0#32 : BitVec 32).toNat] : Fin 3 → Nat))
    (congrArg (pf 0) (unit_first (pos i) _ (off_pos i) (Facts₀.k0_off1_inb i) (Facts₀.numel1_S1.symm ▸ Nat.one_pos)))
theorem tr3 (pf : pre0.Contents (Elt F)) (i : grid0.Coords) :
    cc0_transform_3 Facts₀.k0_off1_inb Facts₀.numel1_S1 pf i = ![(pf 0 (ix1 (pos i))).toNat, 0, 0] :=
  congrArg (fun w : BitVec 32 => (![w.toNat, (0#32 : BitVec 32).toNat, (0#32 : BitVec 32).toNat] : Fin 3 → Nat))
    (congrArg (pf 0) (unit_first (pos i) _ (off_pos i) (Facts₀.k0_off1_inb i) (Facts₀.numel1_S1.symm ▸ Nat.one_pos)))

end Structure

/-! ## The staged blocks, read at an index -/

section Reads

theorem pos_coords (t : Fin grid0.N) (s : Fin 64) (hs : t.val = s.val) : pos (grid0.coords t) = s :=
  Fin.ext ((coord_val t).trans hs)

/-- Index `(r, k)` of the token block at point `t` is row `r` of segment `t`, column `k` of `x`. -/
theorem emb_x (a : (pcfg0 (F := Ideal)).Adm) (t : Fin (cfg0 a).N) (s : Fin 64) (hs : t.val = s.val) (r : Fin 32) (k : Fin 1024) :
    (((cfg0 a).win 0).blk t).view.emb (ix2 r k) = (ix2 (Moe.rowOf s r) k : S2048x1024.Idx) := by
  funext b
  apply Fin.ext
  match b with
  | ⟨0, _⟩ =>
    show ((cfg0 a).win 0).index t (0 : Fin 2) * 32 + 1 * r.val = s.val * 32 + r.val
    rw [index0, tr0 t]
    show t.val * 32 + 1 * r.val = _
    rw [hs]; omega
  | ⟨1, _⟩ =>
    show ((cfg0 a).win 0).index t (1 : Fin 2) * 1024 + 1 * k.val = k.val
    rw [index0, tr0 t]
    show 0 * 1024 + 1 * k.val = k.val
    omega

/-- The same for the result block: where point `t` writes index `(r, d)` back. -/
theorem emb_o (a : (pcfg0 (F := Ideal)).Adm) (t : Fin (cfg0 a).N) (s : Fin 64) (hs : t.val = s.val) (r : Fin 32) (d : Fin 1024) :
    (((cfg0 a).win 4).blk t).view.emb (ix2 r d) = (ix2 (Moe.rowOf s r) d : S2048x1024.Idx) := by
  funext b
  apply Fin.ext
  match b with
  | ⟨0, _⟩ =>
    show ((cfg0 a).win 4).index t (0 : Fin 2) * 32 + 1 * r.val = s.val * 32 + r.val
    rw [index4, tr4 t]
    show t.val * 32 + 1 * r.val = _
    rw [hs]; omega
  | ⟨1, _⟩ =>
    show ((cfg0 a).win 4).index t (1 : Fin 2) * 1024 + 1 * d.val = d.val
    rw [index4, tr4 t]
    show 0 * 1024 + 1 * d.val = d.val
    omega

/-- Index `(0, f, k)` of a weight block at point `t` is `(e, f, k)` of the weight array, `e` the table's word `t`. -/
theorem emb_w1 (a : (pcfg0 (F := Ideal)).Adm) (t : Fin (cfg0 a).N) (s : Fin 64) (hs : t.val = s.val) (e : Fin 64)
    (he : (a.1 0 (ix1 s)).toNat = e.val) (f k : Fin 1024) :
    (((cfg0 a).win 1).blk t).view.emb (ix3 (0 : Fin 1) f k) = (ix3 e f k : S64x1024x1024.Idx) := by
  funext b
  apply Fin.ext
  match b with
  | ⟨0, _⟩ =>
    show ((cfg0 a).win 1).index t (0 : Fin 3) * 1 + 1 * 0 = e.val
    rw [index1, tr1, pos_coords t s hs]
    show (a.1 0 (ix1 s)).toNat * 1 + 1 * 0 = e.val
    rw [he]; omega
  | ⟨1, _⟩ =>
    show ((cfg0 a).win 1).index t (1 : Fin 3) * 1024 + 1 * f.val = f.val
    rw [index1, tr1]
    show 0 * 1024 + 1 * f.val = f.val
    omega
  | ⟨2, _⟩ =>
    show ((cfg0 a).win 1).index t (2 : Fin 3) * 1024 + 1 * k.val = k.val
    rw [index1, tr1]
    show 0 * 1024 + 1 * k.val = k.val
    omega
theorem emb_w2 (a : (pcfg0 (F := Ideal)).Adm) (t : Fin (cfg0 a).N) (s : Fin 64) (hs : t.val = s.val) (e : Fin 64)
    (he : (a.1 0 (ix1 s)).toNat = e.val) (f k : Fin 1024) :
    (((cfg0 a).win 2).blk t).view.emb (ix3 (0 : Fin 1) f k) = (ix3 e f k : S64x1024x1024.Idx) := by
  funext b
  apply Fin.ext
  match b with
  | ⟨0, _⟩ =>
    show ((cfg0 a).win 2).index t (0 : Fin 3) * 1 + 1 * 0 = e.val
    rw [index2, tr2, pos_coords t s hs]
    show (a.1 0 (ix1 s)).toNat * 1 + 1 * 0 = e.val
    rw [he]; omega
  | ⟨1, _⟩ =>
    show ((cfg0 a).win 2).index t (1 : Fin 3) * 1024 + 1 * f.val = f.val
    rw [index2, tr2]
    show 0 * 1024 + 1 * f.val = f.val
    omega
  | ⟨2, _⟩ =>
    show ((cfg0 a).win 2).index t (2 : Fin 3) * 1024 + 1 * k.val = k.val
    rw [index2, tr2]
    show 0 * 1024 + 1 * k.val = k.val
    omega
theorem emb_w3 (a : (pcfg0 (F := Ideal)).Adm) (t : Fin (cfg0 a).N) (s : Fin 64) (hs : t.val = s.val) (e : Fin 64)
    (he : (a.1 0 (ix1 s)).toNat = e.val) (f k : Fin 1024) :
    (((cfg0 a).win 3).blk t).view.emb (ix3 (0 : Fin 1) f k) = (ix3 e f k : S64x1024x1024.Idx) := by
  funext b
  apply Fin.ext
  match b with
  | ⟨0, _⟩ =>
    show ((cfg0 a).win 3).index t (0 : Fin 3) * 1 + 1 * 0 = e.val
    rw [index3, tr3, pos_coords t s hs]
    show (a.1 0 (ix1 s)).toNat * 1 + 1 * 0 = e.val
    rw [he]; omega
  | ⟨1, _⟩ =>
    show ((cfg0 a).win 3).index t (1 : Fin 3) * 1024 + 1 * f.val = f.val
    rw [index3, tr3]
    show 0 * 1024 + 1 * f.val = f.val
    omega
  | ⟨2, _⟩ =>
    show ((cfg0 a).win 3).index t (2 : Fin 3) * 1024 + 1 * k.val = k.val
    rw [index3, tr3]
    show 0 * 1024 + 1 * k.val = k.val
    omega

end Reads

end Cert.KernelIdeal.Windows

end
-- ==== Proof.KernelValue.lean ====
/-
  The array the kernel leaves: every row of `x` through the expert its segment's table word names.

  At grid point `t` the pipeline stages rows `32t … 32t+31` of `x` and, of each weight array, the expert slab whose
  number is word `t` of the table; the body leaves in the output block the value `Body.bodyVal` of those four blocks
  (`Body.out_eq`), and the block is written back to rows `32t … 32t+31` of the result. Read at an index, each staged
  block is its launched array at the block's offset plus the index (`xb_apply`, `w1b_apply`, …, over `Windows.emb_*`;
  no operation before the region writes an argument array), so what point `t` writes back is block `t` of ONE function
  of the argument arrays: `Moe.moe` under the selection "table word, read unsigned" (`flushed_eq`, by
  `Body.bodyVal_apply`). The 64 blocks tile the result (`cover`), so it ends holding that function (`final`), and the
  run is restated with the result named (`run`). The table word is `Moe.pick` of the launched id (`Table.tbl_toNat`),
  whatever the ids are.
-/
import proofs.«412031_j69234872811781_3_alg».proof.Proof.Gen.KernelIdeal.Frame
import proofs.«412031_j69234872811781_3_alg».proof.Proof.Spec
import proofs.«412031_j69234872811781_3_alg».proof.Proof.Body
import proofs.«412031_j69234872811781_3_alg».proof.Proof.TableIdeal
import proofs.«412031_j69234872811781_3_alg».proof.Proof.Windows
import Idealize.ShloMosaic.Lib.Pipeline.Value
import Idealize.ShloMosaic.Lib.ValueIdx

set_option maxRecDepth 16384

noncomputable section

namespace Cert.KernelIdeal.Result

open Cert.KernelIdeal Cert.KernelIdeal.Gen Cert.KernelIdeal.Windows
open Idealize.ShloMosaic Idealize.ShloMosaic.TcCoe Idealize.SL.Sem Idealize.ShloMosaic.ValueIdx
open Idealize.ShloMosaic.Pipeline (Dat)

/-! ## What each point writes back, and the array after the run -/

section Run

variable (m : (ℓ : Loc nD τ sig) → Buf (Elt Ideal) ℓ) (ρ : Dev nD → PrngReg)

/-- THE RESULT: `Moe.moe` of the launched arrays, under a selection of experts per segment. -/
def result (sel : Fin 64 → Fin 64) (c : Dev nD) : S2048x1024.Idx → EReal :=
  Moe.moe (m ((c : Thread nD τ).loc main_arg0)) (m ((c : Thread nD τ).loc main_arg1)) (m ((c : Thread nD τ).loc main_arg2))
    (m ((c : Thread nD τ).loc main_arg3)) sel

/-- The four staged input blocks at point `t`, at their literal types. -/
abbrev xb (hO : Ok m) (c : Dev nD) (t : Fin (cfgM m hO).N) : FVec Ideal S32x1024 .f32 := iblk m hO c 0 t
abbrev w1b (hO : Ok m) (c : Dev nD) (t : Fin (cfgM m hO).N) : FVec Ideal S1x1024x1024 .f32 := iblk m hO c 1 t
abbrev w2b (hO : Ok m) (c : Dev nD) (t : Fin (cfgM m hO).N) : FVec Ideal S1x1024x1024 .f32 := iblk m hO c 2 t
abbrev w3b (hO : Ok m) (c : Dev nD) (t : Fin (cfgM m hO).N) : FVec Ideal S1x1024x1024 .f32 := iblk m hO c 3 t

theorem xb_apply (hO : Ok m) (c : Dev nD) (t : Fin (cfgM m hO).N) (s : Fin 64) (hs : t.val = s.val) (r : Fin 32) (k : Fin 1024) :
    xb m hO c t (ix2 r k) = m ((c : Thread nD τ).loc main_arg0) (ix2 (Moe.rowOf s r) k) := by
  show V m c main_arg0 ((((cfgM m hO).win 0).blk t).view.emb (ix2 r k)) = _
  rw [emb_x (adm m hO) t s hs r k, V_main_arg0]

theorem w1b_apply (hO : Ok m) (c : Dev nD) (t : Fin (cfgM m hO).N) (s : Fin 64) (hs : t.val = s.val) (e : Fin 64)
    (he : (tbl m 0 (ix1 s)).toNat = e.val) (f k : Fin 1024) :
    w1b m hO c t (ix3 (0 : Fin 1) f k) = m ((c : Thread nD τ).loc main_arg1) (ix3 e f k) := by
  show V m c main_arg1 ((((cfgM m hO).win 1).blk t).view.emb (ix3 (0 : Fin 1) f k)) = _
  rw [emb_w1 (adm m hO) t s hs e he f k, V_main_arg1]
theorem w2b_apply (hO : Ok m) (c : Dev nD) (t : Fin (cfgM m hO).N) (s : Fin 64) (hs : t.val = s.val) (e : Fin 64)
    (he : (tbl m 0 (ix1 s)).toNat = e.val) (f k : Fin 1024) :
    w2b m hO c t (ix3 (0 : Fin 1) f k) = m ((c : Thread nD τ).loc main_arg2) (ix3 e f k) := by
  show V m c main_arg2 ((((cfgM m hO).win 2).blk t).view.emb (ix3 (0 : Fin 1) f k)) = _
  rw [emb_w2 (adm m hO) t s hs e he f k, V_main_arg2]
theorem w3b_apply (hO : Ok m) (c : Dev nD) (t : Fin (cfgM m hO).N) (s : Fin 64) (hs : t.val = s.val) (e : Fin 64)
    (he : (tbl m 0 (ix1 s)).toNat = e.val) (f k : Fin 1024) :
    w3b m hO c t (ix3 (0 : Fin 1) f k) = m ((c : Thread nD τ).loc main_arg3) (ix3 e f k) := by
  show V m c main_arg3 ((((cfgM m hO).win 3).blk t).view.emb (ix3 (0 : Fin 1) f k)) = _
  rw [emb_w3 (adm m hO) t s hs e he f k, V_main_arg3]

/-- WHAT POINT `t` WRITES BACK is block `t` of the result. -/
theorem flushed_eq (hO : Ok m) (sel : Fin 64 → Fin 64) (hsel : ∀ s : Fin 64, (tbl m 0 (ix1 s)).toNat = (sel s).val) (c : Dev nD)
    (t : Fin (cfgM m hO).N) :
    (dats m hO 0 c).flushed 4 t = (((cfgM m hO).win 4).blk t).view.read (Elt Ideal) (result m sel c) := by
  have hN : t.val < 64 := by have := t.isLt; have e : (cfgM m hO).N = 64 := N_0; omega
  show ((cfgM m hO).win 4).cut ((cfgM m hO).grid.coords t) ((dats m hO 0 c).after 4 t) = _
  have hout : outsAt0 m hO c t = Body.bodyVal (F := Ideal) (xb m hO c t) (w1b m hO c t) (w2b m hO c t) (w3b m hO c t) :=
    Body.out_eq (F := Ideal) c (grid0.coords t) (ms0_0 m hO t) (hs0_0 m hO t) (ms0_1 m hO t) (hs0_1 m hO t) (ms0_2 m hO t) (hs0_2 m hO t)
      (ms0_3 m hO t) (hs0_3 m hO t) (ms0_4 m hO t) (hs0_4 m hO t) (xb m hO c t) (w1b m hO c t) (w2b m hO c t) (w3b m hO c t) (tbl m 0)
  rw [after0_4, hout]
  refine funext fun (j : S32x1024.Idx) => ?_
  obtain ⟨r, d, rfl⟩ : ∃ (r : Fin 32) (d : Fin 1024), j = ix2 r d := ⟨j 0, j 1, eq_ix2 j⟩
  show Body.bodyVal (F := Ideal) (xb m hO c t) (w1b m hO c t) (w2b m hO c t) (w3b m hO c t) (ix2 r d)
    = result m sel c ((((cfgM m hO).win 4).blk t).view.emb (ix2 r d))
  refine (Body.bodyVal_apply (xb m hO c t) (w1b m hO c t) (w2b m hO c t) (w3b m hO c t) r d).trans ?_
  rw [emb_o (adm m hO) t ⟨t.val, hN⟩ rfl r d]
  unfold result
  rw [Moe.moe_apply, Moe.seg_rowOf]
  have e0 : (fun k => xb m hO c t (ix2 r k)) = fun k => m ((c : Thread nD τ).loc main_arg0) (ix2 (Moe.rowOf ⟨t.val, hN⟩ r) k) :=
    funext fun k => xb_apply m hO c t ⟨t.val, hN⟩ rfl r k
  have e1 : (fun f k => w1b m hO c t (ix3 (0 : Fin 1) f k)) = fun f k => m ((c : Thread nD τ).loc main_arg1) (ix3 (sel ⟨t.val, hN⟩) f k) :=
    funext fun f => funext fun k => w1b_apply m hO c t ⟨t.val, hN⟩ rfl _ (hsel _) f k
  have e2 : (fun f k => w2b m hO c t (ix3 (0 : Fin 1) f k)) = fun f k => m ((c : Thread nD τ).loc main_arg2) (ix3 (sel ⟨t.val, hN⟩) f k) :=
    funext fun f => funext fun k => w2b_apply m hO c t ⟨t.val, hN⟩ rfl _ (hsel _) f k
  have e3 : (fun d' f => w3b m hO c t (ix3 (0 : Fin 1) d' f)) = fun d' f => m ((c : Thread nD τ).loc main_arg3) (ix3 (sel ⟨t.val, hN⟩) d' f) :=
    funext fun f => funext fun k => w3b_apply m hO c t ⟨t.val, hN⟩ rfl _ (hsel _) f k
  rw [e0, e1, e2, e3]

end Run

/-! ## The blocks tile the result -/

set_option backward.isDefEq.respectTransparency.types false in
/-- An index of the result is in point `t`'s block iff each coordinate is in the block's range on its axis. -/
theorem mem_blk (a : (pcfg0 (F := Ideal)).Adm) (t : Fin (cfg0 a).N) (i : S2048x1024.Idx) :
    i ∈ (((cfg0 a).win 4).blk t).view.set ↔ ∀ b : Fin 2, ((cfg0 a).win 4).index t b * S32x1024.size b ≤ (i b).val
      ∧ (i b).val < ((cfg0 a).win 4).index t b * S32x1024.size b + S32x1024.size b := by
  show i ∈ ((View.whole main_v1).slice (((cfg0 a).win 4).rect t)).set ↔ _
  rw [View.set_slice_whole]
  exact Rect.mem_set_unit

/-- Row `r` of the result is in the block of point `r / 32`, which is written back. -/
theorem cover (a : (pcfg0 (F := Ideal)).Adm) (i : S2048x1024.Idx) :
    ∃ t : Fin (cfg0 a).N, ((cfg0 a).win 4).flush t = true ∧ i ∈ (((cfg0 a).win 4).blk t).view.set := by
  have hi0 : (i 0).val < 2048 := (i 0).isLt
  have hi1 : (i 1).val < 1024 := (i 1).isLt
  have hN : (cfg0 a).N = 64 := N_0
  refine ⟨⟨(i 0).val / 32, by rw [hN]; omega⟩, flush0_4 a _, ?_⟩
  rw [mem_blk]
  intro b
  match b with
  | ⟨0, _⟩ =>
    show ((cfg0 a).win 4).index ⟨(i 0).val / 32, _⟩ (0 : Fin 2) * 32 ≤ (i 0).val
      ∧ (i 0).val < ((cfg0 a).win 4).index ⟨(i 0).val / 32, _⟩ (0 : Fin 2) * 32 + 32
    rw [index4, tr4]
    show (i 0).val / 32 * 32 ≤ (i 0).val ∧ (i 0).val < (i 0).val / 32 * 32 + 32
    omega
  | ⟨1, _⟩ =>
    show ((cfg0 a).win 4).index ⟨(i 0).val / 32, _⟩ (1 : Fin 2) * 1024 ≤ (i 1).val
      ∧ (i 1).val < ((cfg0 a).win 4).index ⟨(i 0).val / 32, _⟩ (1 : Fin 2) * 1024 + 1024
    rw [index4, tr4]
    show 0 * 1024 ≤ (i 1).val ∧ (i 1).val < 0 * 1024 + 1024
    omega

/-! ## The array after the run -/

section Final

variable (m : (ℓ : Loc nD τ sig) → Buf (Elt Ideal) ℓ) (ρ : Dev nD → PrngReg)

/-- THE RESULT ARRAY after the run. -/
theorem final (hO : Ok m) (sel : Fin 64 → Fin 64) (hsel : ∀ s : Fin 64, (tbl m 0 (ix1 s)).toNat = (sel s).val) (c : Dev nD) :
    (dats m hO 0 c).arrAt 4 (cfgM m hO).N = result m sel c :=
  (dats m hO 0 c).arrAt_eq_of_cover 4 (result m sel c) (fun t _ => flushed_eq m hO sel hsel c t) (cover (adm m hO))

/-- The selection the kernel makes: the launched id of the segment, read signed and clamped into 0 … 63. -/
def sel (c : Dev nD) : Fin 64 → Fin 64 := fun s => Moe.pick (m ((c : Thread nD τ).loc main_arg4) (ix1 s))

theorem hsel (s : Fin 64) : (tbl m 0 (ix1 s)).toNat = (sel m 0 s).val := Table.tbl_toNat m (ix1 s)

/-- THE RUN, with the result named: every weakly fair execution terminates with the result array at `Moe.moe` of the
    launched arrays under the kernel's selection, and the argument arrays as launched. -/
theorem run : θ_run defs (onTc (τ := τ) (main (F := Ideal))) ⟨m, fun _ => 0, ρ⟩ fun r => ∀ c : Dev nD,
      r.2.mem ((c.tc : Thread nD τ).loc main_v1) = result m (sel m 0) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 4).trans (final m (Table.ok m) (sel m 0) (hsel m) c),
      ((h c).1 0).trans (((dats m (Table.ok m) 0 c).arrAt_in 0 rfl _).trans ((A_eq m (Table.ok m) c 0).trans (V_main_arg0 m c))),
      ((h c).1 1).trans (((dats m (Table.ok m) 0 c).arrAt_in 1 rfl _).trans ((A_eq m (Table.ok m) c 1).trans (V_main_arg1 m c))),
      ((h c).1 2).trans (((dats m (Table.ok m) 0 c).arrAt_in 2 rfl _).trans ((A_eq m (Table.ok m) c 2).trans (V_main_arg2 m c))),
      ((h c).1 3).trans (((dats m (Table.ok m) 0 c).arrAt_in 3 rfl _).trans ((A_eq m (Table.ok m) c 3).trans (V_main_arg3 m c))),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c)⟩)
    (run_main m ρ (Table.ok m))

end Final

end Cert.KernelIdeal.Result

end
-- ==== Proof.RefValue.lean ====
/-
  The reference's result, read at an index: every row of `x` through the expert its segment's id names.

  The reference's `w[expert_ids]` first wraps a negative id by 64 and then gathers, the gather clamping the start row into
  0 … 63 (`gather_slab`): slab `Moe.pick (wrap id)`. Under the precondition the ids are not negative, the wrap is
  not taken (`wrap_of_nonneg`), and the slab is `Moe.pick id`. The reshape to segments puts row `32s + t` of `x` at
  `(s, t)` and back; the three batched products are sums over the contracted axis at `Ideal`; `silu` is the textbook
  `g · 1 / (1 + e^(-g))`, which is `g · logistic g` there, the constant `1.0` being the number one. So the result at
  row `r`, column `d` is `Moe.mlpRow` of row `r` with the slabs of expert `Moe.pick id[r / 32]`: `Moe.moe` under the
  selection `pick ∘ id` (`ref_eq`).
-/
import proofs.«412031_j69234872811781_3_alg».proof.Proof.Gen.ReferenceIdeal.Read
import proofs.«412031_j69234872811781_3_alg».proof.Proof.Spec
import Idealize.ShloMosaic.Lib.ValueIdx
import Idealize.ShloMosaic.PureOps.Ideal.Laws
import Idealize.ShloMosaic.PureOps.IdealRules

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## The gather of one expert slab per segment -/

/-- The gather reads, for segment `s`, the slab its start word names: the word read signed and clamped into 0 … 63. -/
theorem gather_slab {α : Type} (x : S64x1024x1024.Idx → α) (idx : IVec S64x1 32) (s : Fin 64) (f k : Fin 1024) :
    Host.gather gather_S64x1024x1024_S64x1_S64x1024x1024_12_0_n_n_0_1_110241024 x idx (ix3 s f k)
      = x (ix3 (Moe.pick (idx (ix2 s (0 : Fin 1)))) f k) := by
  unfold Host.gather
  refine congrArg x (funext fun a => Fin.ext ?_)
  fin_cases a <;>
    simp [GatherDims.operandIdx, GatherDims.start, GatherDims.offCoord, GatherDims.batchCoord,
      gather_S64x1024x1024_S64x1_S64x1024x1024_12_0_n_n_0_1_110241024, GatherDims.sKept, Shape.kept, Moe.pick]
  · exact congrArg (fun i => min (idx i).toInt.toNat 63) (funext fun b => by fin_cases b <;> rfl)
  · exact congrArg (fun a : Fin 3 => ((ix3 s f k) a : ℕ)) (show _ = (1 : Fin 3) by decide)
  · exact congrArg (fun a : Fin 3 => ((ix3 s f k) a : ℕ)) (show _ = (2 : Fin 3) by decide)

/-- A word that is not negative is not below zero as a signed word. -/
theorem not_slt_zero (w : BitVec 32) (h : IntOp.cmpi .sge w 0#32 = 1#1) : ¬ (IntOp.cmpi .slt w 0#32 = 1#1) := by
  intro h'
  unfold IntOp.cmpi at h h'
  have e1 : ∀ b : Bool, BitVec.ofBool b = 1#1 ↔ b = true := fun b => by cases b <;> decide
  rw [e1] at h h'
  simp only [BitVec.slt, BitVec.sle, decide_eq_true_eq] at h h'
  omega

/-- The wrap of a negative index by 64 leaves a word that is not negative. -/
theorem wrap_of_nonneg (w : BitVec 32) (h : IntOp.cmpi .sge w 0#32 = 1#1) :
    Scalar.select (IntOp.cmpi .slt w 0#32) (IntOp.addi w 64#32) w = w := if_neg (not_slt_zero w h)

/-- The three start-index arrays at segment `s`: the id itself, when it is not negative. -/
theorem start6 (x4 : IVec S64 32) (s : Fin 64) (h : IntOp.cmpi .sge (x4 (ix1 s)) 0#32 = 1#1) :
    val_main_v6 (F := Ideal) x4 (ix2 s (0 : Fin 1)) = x4 (ix1 s) := by
  rw [val_main_v6_apply]
  have e : idx_main_v6 (ix2 s (0 : Fin 1)) = ix1 s := funext fun a => by match a with | ⟨0, _⟩ => rfl
  rw [e, val_main_v5_apply, val_main_v2_apply, val_main_v4_apply, val_main_v1_apply, val_main_v3_apply, val_main_c_apply, val_main_c_0_apply]
  exact wrap_of_nonneg _ h
theorem start13 (x4 : IVec S64 32) (s : Fin 64) (h : IntOp.cmpi .sge (x4 (ix1 s)) 0#32 = 1#1) :
    val_main_v13 (F := Ideal) x4 (ix2 s (0 : Fin 1)) = x4 (ix1 s) := by
  rw [val_main_v13_apply]
  have e : idx_main_v13 (ix2 s (0 : Fin 1)) = ix1 s := funext fun a => by match a with | ⟨0, _⟩ => rfl
  rw [e, val_main_v12_apply, val_main_v9_apply, val_main_v11_apply, val_main_v8_apply, val_main_v10_apply, val_main_c_1_apply, val_main_c_2_apply]
  exact wrap_of_nonneg _ h
theorem start20 (x4 : IVec S64 32) (s : Fin 64) (h : IntOp.cmpi .sge (x4 (ix1 s)) 0#32 = 1#1) :
    val_main_v20 (F := Ideal) x4 (ix2 s (0 : Fin 1)) = x4 (ix1 s) := by
  rw [val_main_v20_apply]
  have e : idx_main_v20 (ix2 s (0 : Fin 1)) = ix1 s := funext fun a => by match a with | ⟨0, _⟩ => rfl
  rw [e, val_main_v19_apply, val_main_v16_apply, val_main_v18_apply, val_main_v15_apply, val_main_v17_apply, val_main_c_3_apply, val_main_c_4_apply]
  exact wrap_of_nonneg _ h

/-! ## The products and the activation, at an index -/

/-- The reshape to segments: `(s, t, k)` of the segmented tokens is row `32s + t`, column `k` of `x`. -/
theorem x_seg (x0 : (⟨S2048x1024, .f32⟩ : BufTy).Contents (Elt Ideal)) (s : Fin 64) (t : Fin 32) (k : Fin 1024) :
    val_main_v0 (F := Ideal) x0 (ix3 s t k) = x0 (ix2 (Moe.rowOf s t) k) := by
  rw [val_main_v0_apply]
  have hk := k.isLt
  refine congrArg x0 (funext fun a => Fin.ext ?_)
  match a with
  | ⟨0, _⟩ => show ((s.val * 32 + t.val) * 1024 + k.val) / 1024 = s.val * 32 + t.val; omega
  | ⟨1, _⟩ => show ((s.val * 32 + t.val) * 1024 + k.val) % 1024 = k.val; omega

/-- The gate projection of segment `s`, row `t`, feature `f`: with the slab of the expert the segment's start word names. -/
theorem gate_apply (x0 : (⟨S2048x1024, .f32⟩ : BufTy).Contents (Elt Ideal)) (x1 : (⟨S64x1024x1024, .f32⟩ : BufTy).Contents (Elt Ideal))
    (x4 : (⟨S64, .i32⟩ : BufTy).Contents (Elt Ideal)) (s : Fin 64) (t : Fin 32) (f : Fin 1024) (e : Fin 64)
    (he : Moe.pick (val_main_v6 (F := Ideal) x4 (ix2 s (0 : Fin 1))) = e) :
    val_main_v22 (F := Ideal) x0 x1 x4 (ix3 s t f) = ∑ k : Fin 1024, x0 (ix2 (Moe.rowOf s t) k) * x1 (ix3 e f k) := by
  rw [val_main_v22_apply]
  refine Finset.sum_congr rfl fun k _ => ?_
  have hl : lidx_main_v22 (ix3 s t f) k = ix3 s t k := funext fun a => by
    match a with | ⟨0, _⟩ => rfl | ⟨1, _⟩ => rfl | ⟨2, _⟩ => rfl
  have hr : ridx_main_v22 (ix3 s t f) k = ix3 s f k := funext fun a => by
    match a with | ⟨0, _⟩ => rfl | ⟨1, _⟩ => rfl | ⟨2, _⟩ => rfl
  rw [hl, hr, x_seg]
  unfold val_main_v7
  rw [gather_slab, he]

/-- The up projection, likewise. -/
theorem up_apply (x0 : (⟨S2048x1024, .f32⟩ : BufTy).Contents (Elt Ideal)) (x2 : (⟨S64x1024x1024, .f32⟩ : BufTy).Contents (Elt Ideal))
    (x4 : (⟨S64, .i32⟩ : BufTy).Contents (Elt Ideal)) (s : Fin 64) (t : Fin 32) (f : Fin 1024) (e : Fin 64)
    (he : Moe.pick (val_main_v13 (F := Ideal) x4 (ix2 s (0 : Fin 1))) = e) :
    val_main_v23 (F := Ideal) x0 x2 x4 (ix3 s t f) = ∑ k : Fin 1024, x0 (ix2 (Moe.rowOf s t) k) * x2 (ix3 e f k) := by
  rw [val_main_v23_apply]
  refine Finset.sum_congr rfl fun k _ => ?_
  have hl : lidx_main_v23 (ix3 s t f) k = ix3 s t k := funext fun a => by
    match a with | ⟨0, _⟩ => rfl | ⟨1, _⟩ => rfl | ⟨2, _⟩ => rfl
  have hr : ridx_main_v23 (ix3 s t f) k = ix3 s f k := funext fun a => by
    match a with | ⟨0, _⟩ => rfl | ⟨1, _⟩ => rfl | ⟨2, _⟩ => rfl
  rw [hl, hr, x_seg]
  unfold val_main_v14
  rw [gather_slab, he]

/-- The constant `1.0` is the number one. -/
theorem one_f32 : FloatOps.ofBits (F := Ideal) .f32 0x3F800000#32 = (1 : EReal) := IdealRules.sign_bit.ideal_onePat .f32

/-- The hidden value: gate · logistic gate · up — the reference's `g · (1 / (1 + e^(-g)))` is `g · logistic g`. -/
theorem hidden_apply (x0 : (⟨S2048x1024, .f32⟩ : BufTy).Contents (Elt Ideal)) (x1 x2 : (⟨S64x1024x1024, .f32⟩ : BufTy).Contents (Elt Ideal))
    (x4 : (⟨S64, .i32⟩ : BufTy).Contents (Elt Ideal)) (i : S64x32x1024.Idx) :
    val_main_v25 (F := Ideal) x0 x1 x2 x4 i
      = (val_main_v22 (F := Ideal) x0 x1 x4 i * Ideal.logistic (val_main_v22 (F := Ideal) x0 x1 x4 i)) * val_main_v23 (F := Ideal) x0 x2 x4 i := by
  rw [val_main_v25_apply, val_main_v24_apply, val_main_call0_v5_apply, val_main_call0_v4_apply, val_main_call0_cst_0_apply,
    val_main_call0_v3_apply, val_main_call0_v2_apply, val_main_call0_cst_apply, val_main_call0_v1_apply, val_main_call0_v0_apply, one_f32]
  rfl

/-- The down projection of segment `s`, row `t`, column `d`. -/
theorem out_apply (x0 : (⟨S2048x1024, .f32⟩ : BufTy).Contents (Elt Ideal)) (x1 x2 x3 : (⟨S64x1024x1024, .f32⟩ : BufTy).Contents (Elt Ideal))
    (x4 : (⟨S64, .i32⟩ : BufTy).Contents (Elt Ideal)) (s : Fin 64) (t : Fin 32) (d : Fin 1024) (e : Fin 64)
    (he : Moe.pick (val_main_v20 (F := Ideal) x4 (ix2 s (0 : Fin 1))) = e) :
    val_main_v26 (F := Ideal) x0 x1 x2 x3 x4 (ix3 s t d)
      = ∑ f : Fin 1024, val_main_v25 (F := Ideal) x0 x1 x2 x4 (ix3 s t f) * x3 (ix3 e d f) := by
  rw [val_main_v26_apply]
  refine Finset.sum_congr rfl fun f _ => ?_
  have hl : lidx_main_v26 (ix3 s t d) f = ix3 s t f := funext fun a => by
    match a with | ⟨0, _⟩ => rfl | ⟨1, _⟩ => rfl | ⟨2, _⟩ => rfl
  have hr : ridx_main_v26 (ix3 s t d) f = ix3 s d f := funext fun a => by
    match a with | ⟨0, _⟩ => rfl | ⟨1, _⟩ => rfl | ⟨2, _⟩ => rfl
  rw [hl, hr]
  unfold val_main_v21
  rw [gather_slab, he]

/-! ## The reference's result -/

/-- THE REFERENCE'S RESULT, when no id is negative: `Moe.moe` of its arguments under the selection `pick ∘ id`. -/
theorem ref_eq (x0 : (⟨S2048x1024, .f32⟩ : BufTy).Contents (Elt Ideal)) (x1 x2 x3 : (⟨S64x1024x1024, .f32⟩ : BufTy).Contents (Elt Ideal))
    (x4 : (⟨S64, .i32⟩ : BufTy).Contents (Elt Ideal)) (hge : ∀ s : Fin 64, IntOp.cmpi .sge (x4 (ix1 s)) 0#32 = 1#1) :
    val_main_v27 (F := Ideal) x0 x1 x2 x3 x4 = Moe.moe x0 x1 x2 x3 (fun s => Moe.pick (x4 (ix1 s))) := by
  funext i
  obtain ⟨r, d, rfl⟩ : ∃ (r : Fin 2048) (d : Fin 1024), i = ix2 r d := ⟨i 0, i 1, eq_ix2 i⟩
  have hr : r.val < 2048 := r.isLt
  have hd : d.val < 1024 := d.isLt
  have hi : idx_main_v27 (ix2 r d) = ix3 (Moe.seg r) (⟨r.val % 32, Nat.mod_lt _ (by decide)⟩ : Fin 32) d := by
    funext a
    apply Fin.ext
    match a with
    | ⟨0, _⟩ => show (r.val * 1024 + d.val) / 32768 = r.val / 32; omega
    | ⟨1, _⟩ => show (r.val * 1024 + d.val) / 1024 % 32 = r.val % 32; omega
    | ⟨2, _⟩ => show (r.val * 1024 + d.val) % 1024 = d.val; omega
  have hrow : Moe.rowOf (Moe.seg r) (⟨r.val % 32, Nat.mod_lt _ (by decide)⟩ : Fin 32) = r :=
    Fin.ext (by show r.val / 32 * 32 + r.val % 32 = r.val; omega)
  rw [val_main_v27_apply, hi, out_apply x0 x1 x2 x3 x4 _ _ _ _ (congrArg Moe.pick (start20 x4 _ (hge _))), Moe.moe_apply]
  unfold Moe.mlpRow
  refine Finset.sum_congr rfl fun f _ => ?_
  rw [hidden_apply, gate_apply x0 x1 x4 _ _ _ _ (congrArg Moe.pick (start6 x4 _ (hge _))),
    up_apply x0 x2 x4 _ _ _ _ (congrArg Moe.pick (start13 x4 _ (hge _))), hrow]

end Cert.ReferenceIdeal.RefValue

end
-- ==== Proof.PreIds.lean ====
/-
  The precondition, read back: no expert id is negative.

  The precondition is a conjunction of "every entry is finite" over the four float arrays and, last, "every expert id is
  at least zero as a signed word", each an `and`-reduction of a mask to one bit. The whole being one, its last conjunct
  is one (`IntOp.andi_eq_one`), and an `and`-reduction that is one had a one at every index (`Host.reduce_andi_all`):
  the comparison `id ≥ 0` holds at every position. The finiteness conjuncts are not used: the two programs agree as
  extended reals whatever the float entries are.
-/
import proofs.«412031_j69234872811781_3_alg».proof.Pre_finite_inputs
import Idealize.ShloMosaic.Lib.ReduceAll
import Idealize.ShloMosaic.Lib.ValueIdx

noncomputable section

namespace Cert.PreIds

open Cert.Pre_finite_inputs
open Idealize.ShloMosaic Idealize.ShloMosaic.ValueIdx

variable {F : FTy → Type} [FloatOps F] [Cert.Pre_finite_inputs.Facts]

/-- The scalar shape has one index. -/
instance : Subsingleton S_.Idx := ⟨fun a b => funext fun d => d.elim0⟩

/-- Under the precondition every expert id is at least zero, signed. -/
theorem ids_nonneg (a0 : FVec F S2048x1024 .f32) (a1 a2 a3 : FVec F S64x1024x1024 .f32) (a4 a5 a6 : IVec S64 32)
    (h : fn (F := F) a0 a1 a2 a3 a4 a5 a6 = fun _ => 1#1) (i : S64.Idx) : IntOp.cmpi .sge (a4 i) 0#32 = 1#1 := by
  have e := congrFun h ix0
  unfold fn at e
  dsimp only at e
  unfold fn_part1 at e
  dsimp only at e
  have e2 := (IntOp.andi_eq_one.1 e).2
  exact Host.reduce_andi_all _ _ _ _ ix0 e2 i

end Cert.PreIds

end
-- ==== Proof.lean ====
/-
  The grouped expert MLP: 64 segments of 32 token rows, each through the SwiGLU MLP of the expert its id selects —
  the kernel against the batched reference, as extended reals.

  Both programs compute `Moe.moe` (Proof/Spec.lean): row `r`, column `d` of the result is
  `∑_f ((g f · logistic (g f)) · u f) · W2[e, d, f]` with `g = x[r, ·]·W1[e]ᵀ`, `u = x[r, ·]·W3[e]ᵀ` and `e` the expert of
  segment `r / 32`. The kernel clamps the segment's id into 0 … 63 and lets the pipeline fetch that expert's three
  slabs (Proof/TableIdeal.lean, Proof/Windows.lean); its body forms the down projection in two halves of the hidden
  axis added in turn to a zero block, which is the whole sum (Proof/Body.lean); the 64 output blocks tile the result
  (Proof/KernelValue.lean). The reference wraps a negative id by 64, gathers with a clamped start row, and takes
  three batched products around `g · 1 / (1 + e^(-g))` (Proof/RefValue.lean). The two selections of an expert agree
  exactly when the wrap is not taken; the precondition says no id is negative (Proof/PreIds.lean), and then both are
  the id read signed and clamped into 0 … 63. Nothing else of the precondition is used: the sums are re-associated
  only as sums of a commutative monoid, so the float entries may be any extended reals.

  The frames: the kernel's two frames hold for every launch memory, since the clamped table always names a slab
  inside the weight arrays (`Table.ok`); the reference's frame is its run with the result dropped. The ideal pass
  rewrote nothing, so `preserves` is `True`.
-/
import proofs.«412031_j69234872811781_3_alg».proof.Defs
import proofs.«412031_j69234872811781_3_alg».proof.Proof.Gen.Kernel
import proofs.«412031_j69234872811781_3_alg».proof.Proof.Gen.Kernel.Skeleton
import proofs.«412031_j69234872811781_3_alg».proof.Proof.Gen.Kernel.Launch
import proofs.«412031_j69234872811781_3_alg».proof.Proof.Gen.Kernel.Points
import proofs.«412031_j69234872811781_3_alg».proof.Proof.Gen.Kernel.Frame
import proofs.«412031_j69234872811781_3_alg».proof.Proof.Gen.KernelIdeal
import proofs.«412031_j69234872811781_3_alg».proof.Proof.Gen.KernelIdeal.Skeleton
import proofs.«412031_j69234872811781_3_alg».proof.Proof.Gen.KernelIdeal.Launch
import proofs.«412031_j69234872811781_3_alg».proof.Proof.Gen.KernelIdeal.Points
import proofs.«412031_j69234872811781_3_alg».proof.Proof.Gen.KernelIdeal.Frame
import proofs.«412031_j69234872811781_3_alg».proof.Proof.Gen.ReferenceIdeal
import proofs.«412031_j69234872811781_3_alg».proof.Proof.Gen.ReferenceIdeal.Run
import proofs.«412031_j69234872811781_3_alg».proof.Proof.Gen.ReferenceIdeal.Read
import proofs.«412031_j69234872811781_3_alg».proof.Proof.Gen.Pre_finite_inputs
import proofs.«412031_j69234872811781_3_alg».proof.Proof.TableBits
import proofs.«412031_j69234872811781_3_alg».proof.Proof.TableIdeal
import proofs.«412031_j69234872811781_3_alg».proof.Proof.KernelValue
import proofs.«412031_j69234872811781_3_alg».proof.Proof.RefValue
import proofs.«412031_j69234872811781_3_alg».proof.Proof.PreIds
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's frame at the word level: the clamped table meets the pipeline's side condition at every launch memory. -/
theorem frame_k : Cert.frame_Kernel := fun m ρ _ => Cert.Kernel.Gen.frame m ρ (Cert.Kernel.Table.ok m)

/-- The same for the idealized kernel. -/
theorem frame_ki : Cert.frame_KernelIdeal := fun m ρ _ => Cert.KernelIdeal.Gen.frame m ρ (Cert.KernelIdeal.Table.ok m)

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with one result: `Moe.moe` of the arguments under the selection "id read signed,
    clamped into 0 … 63" — the kernel's for every ids (its clamp), the reference's when no id is negative (its wrap
    is not taken), which the precondition says. -/
theorem algebraic : Cert.algebraic_KernelIdeal_ReferenceIdeal := by
  intro m ρ m' ρ' hpre hagree
  refine ⟨fun c => Cert.KernelIdeal.Result.result m (Cert.KernelIdeal.Result.sel m 0) c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v27_eq, (hagree 0).1, (hagree 0).2.1, (hagree 0).2.2.1, (hagree 0).2.2.2.1,
    (hagree 0).2.2.2.2.1]
  exact Cert.ReferenceIdeal.RefValue.ref_eq _ _ _ _ _
    (fun s => Cert.PreIds.ids_nonneg _ _ _ _ _ _ _ (hpre 0) (ix1 s))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
